-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4x1024 : Shape := ⟨2, ![4, 1024]⟩
abbrev S4096x4096 : Shape := ⟨2, ![4096, 4096]⟩
abbrev S1024x16 : Shape := ⟨2, ![1024, 16]⟩
abbrev S16x65536 : Shape := ⟨2, ![16, 65536]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4x1024 : S_.BroadcastsInDim S4x1024 (![] : Fin 0 → Fin S4x1024.rank)
  reducesTo_S4x1024_S_d0_1 : S4x1024.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S1024x16 : S_.BroadcastsInDim S1024x16 (![] : Fin 0 → Fin S1024x16.rank)
  reducesTo_S1024x16_S_d0_1 : S1024x16.ReducesTo [0, 1] S_
  bcast_S_S16x65536 : S_.BroadcastsInDim S16x65536 (![] : Fin 0 → Fin S16x65536.rank)
  reducesTo_S16x65536_S_d0_1 : S16x65536.ReducesTo [0, 1] S_

variable [Facts]

def fn_part1 {F : FTy → Type} [FloatOps F] (main_arg4 : FVec F S16x65536 .f32) (main_arg5 : FVec F S1024x16 .f32) (main_arg6 : FVec F S16x65536 .f32) (main_v13 : IVec S_ 1) (main_v16 : IVec S1024x16 1) : IVec S_ 1 :=
  let main_c_5 : IVec S_ 1 := constantI S_ 1 1#1
  let main_v17 : IVec S_ 1 := (fun x v => Host.reduce IntOp.andi x v reducesTo_S1024x16_S_d0_1 h_S_) main_v16 main_c_5
  let main_v18 : IVec S_ 1 := andi main_v13 main_v17
  let main_v19 : FVec F S16x65536 .f32 := Host.absf main_arg4
  let main_cst_6 : FVec F S_ .f32 := constant S_ .f32 0x7F800000#32
  let main_v20 : FVec F S16x65536 .f32 := broadcastInDim S16x65536 ![] bcast_S_S16x65536 main_cst_6
  let main_v21 : IVec S16x65536 1 := cmpf .olt main_v19 main_v20
  let main_c_7 : IVec S_ 1 := constantI S_ 1 1#1
  let main_v22 : IVec S_ 1 := (fun x v => Host.reduce IntOp.andi x v reducesTo_S16x65536_S_d0_1 h_S_) main_v21 main_c_7
  let main_v23 : IVec S_ 1 := andi main_v18 main_v22
  let main_v24 : FVec F S1024x16 .f32 := Host.absf main_arg5
  let main_cst_8 : FVec F S_ .f32 := constant S_ .f32 0x7F800000#32
  let main_v25 : FVec F S1024x16 .f32 := broadcastInDim S1024x16 ![] bcast_S_S1024x16 main_cst_8
  let main_v26 : IVec S1024x16 1 := cmpf .olt main_v24 main_v25
  let main_c_9 : IVec S_ 1 := constantI S_ 1 1#1
  let main_v27 : IVec S_ 1 := (fun x v => Host.reduce IntOp.andi x v reducesTo_S1024x16_S_d0_1 h_S_) main_v26 main_c_9
  let main_v28 : IVec S_ 1 := andi main_v23 main_v27
  let main_v29 : FVec F S16x65536 .f32 := Host.absf main_arg6
  let main_cst_10 : FVec F S_ .f32 := constant S_ .f32 0x7F800000#32
  let main_v30 : FVec F S16x65536 .f32 := broadcastInDim S16x65536 ![] bcast_S_S16x65536 main_cst_10
  let main_v31 : IVec S16x65536 1 := cmpf .olt main_v29 main_v30
  let main_c_11 : IVec S_ 1 := constantI S_ 1 1#1
  let main_v32 : IVec S_ 1 := (fun x v => Host.reduce IntOp.andi x v reducesTo_S16x65536_S_d0_1 h_S_) main_v31 main_c_11
  let main_v33 : IVec S_ 1 := andi main_v28 main_v32
  main_v33

def fn {F : FTy → Type} [FloatOps F] (main_arg0 : FVec F S4x2048x4096 .f32) (main_arg1 : FVec F S4x1024 .f32) (main_arg2 : FVec F S4096x4096 .f32) (main_arg3 : FVec F S1024x16 .f32) (main_arg4 : FVec F S16x65536 .f32) (main_arg5 : FVec F S1024x16 .f32) (main_arg6 : FVec F S16x65536 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4x1024 .f32 := Host.absf main_arg1
  let main_cst_0 : FVec F S_ .f32 := constant S_ .f32 0x7F800000#32
  let main_v5 : FVec F S4x1024 .f32 := broadcastInDim S4x1024 ![] bcast_S_S4x1024 main_cst_0
  let main_v6 : IVec S4x1024 1 := cmpf .olt main_v4 main_v5
  let main_c_1 : IVec S_ 1 := constantI S_ 1 1#1
  let main_v7 : IVec S_ 1 := (fun x v => Host.reduce IntOp.andi x v reducesTo_S4x1024_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S1024x16 .f32 := Host.absf main_arg3
  let main_cst_4 : FVec F S_ .f32 := constant S_ .f32 0x7F800000#32
  let main_v15 : FVec F S1024x16 .f32 := broadcastInDim S1024x16 ![] bcast_S_S1024x16 main_cst_4
  let main_v16 : IVec S1024x16 1 := cmpf .olt main_v14 main_v15
  fn_part1 (F := F) main_arg4 main_arg5 main_arg6 main_v13 main_v16
-- ==== Kernel.lean ====
abbrev S4x2048x4096 : Shape := ⟨3, ![4, 2048, 4096]⟩
abbrev S4x1024 : Shape := ⟨2, ![4, 1024]⟩
abbrev S4096x4096 : Shape := ⟨2, ![4096, 4096]⟩
abbrev S1024x16 : Shape := ⟨2, ![1024, 16]⟩
abbrev S16x65536 : Shape := ⟨2, ![16, 65536]⟩
abbrev S4x16 : Shape := ⟨2, ![4, 16]⟩
abbrev S4x65536 : Shape := ⟨2, ![4, 65536]⟩
abbrev S_ : Shape := ⟨0, ![]⟩
abbrev S4x4096x16 : Shape := ⟨3, ![4, 4096, 16]⟩
abbrev S4x16x4096 : Shape := ⟨3, ![4, 16, 4096]⟩
abbrev S1x1024x1024 : Shape := ⟨3, ![1, 1024, 1024]⟩
abbrev S1024x1024 : Shape := ⟨2, ![1024, 1024]⟩
abbrev S1x1024x16 : Shape := ⟨3, ![1, 1024, 16]⟩
abbrev S1x16x1024 : Shape := ⟨3, ![1, 16, 1024]⟩
abbrev S16x1024 : Shape := ⟨2, ![16, 1024]⟩

abbrev nBuf : Space → Nat
  | .hbm => 25
  | .vmem => 12
  | .smem => 0
  | _ => 0

abbrev bufTy : (tb : Table) → Fin (tcTables nBuf tb) → BufTy
  | .hbm, ⟨0, _⟩ => ⟨S4x2048x4096, .f32⟩
  | .hbm, ⟨1, _⟩ => ⟨S4x1024, .f32⟩
  | .hbm, ⟨2, _⟩ => ⟨S4096x4096, .f32⟩
  | .hbm, ⟨3, _⟩ => ⟨S1024x16, .f32⟩
  | .hbm, ⟨4, _⟩ => ⟨S16x65536, .f32⟩
  | .hbm, ⟨5, _⟩ => ⟨S1024x16, .f32⟩
  | .hbm, ⟨6, _⟩ => ⟨S16x65536, .f32⟩
  | .hbm, ⟨7, _⟩ => ⟨S4x16, .f32⟩
  | .hbm, ⟨8, _⟩ => ⟨S4x65536, .f32⟩
  | .hbm, ⟨9, _⟩ => ⟨S_, .f32⟩
  | .hbm, ⟨10, _⟩ => ⟨S4x65536, .f32⟩
  | .hbm, ⟨11, _⟩ => ⟨S4x65536, .f32⟩
  | .hbm, ⟨12, _⟩ => ⟨S4x4096x16, .f32⟩
  | .hbm, ⟨13, _⟩ => ⟨S4x16, .f32⟩
  | .hbm, ⟨14, _⟩ => ⟨S4x65536, .f32⟩
  | .hbm, ⟨15, _⟩ => ⟨S_, .f32⟩
  | .hbm, ⟨16, _⟩ => ⟨S4x65536, .f32⟩
  | .hbm, ⟨17, _⟩ => ⟨S4x65536, .f32⟩
  | .hbm, ⟨18, _⟩ => ⟨S4x16x4096, .f32⟩
  | .hbm, ⟨19, _⟩ => ⟨S4x2048x4096, .bf16⟩
  | .hbm, ⟨20, _⟩ => ⟨S4096x4096, .f32⟩
  | .hbm, ⟨21, _⟩ => ⟨S4096x4096, .bf16⟩
  | .hbm, ⟨22, _⟩ => ⟨S4x4096x16, .bf16⟩
  | .hbm, ⟨23, _⟩ => ⟨S4x16x4096, .bf16⟩
  | .hbm, ⟨24, _⟩ => ⟨S4x2048x4096, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x16, .bf16⟩
  | .local _ .vmem, ⟨5, _⟩ => ⟨S1x1024x16, .bf16⟩
  | .local _ .vmem, ⟨6, _⟩ => ⟨S1x16x1024, .bf16⟩
  | .local _ .vmem, ⟨7, _⟩ => ⟨S1x16x1024, .bf16⟩
  | .local _ .vmem, ⟨8, _⟩ => ⟨S1x1024x1024, .f32⟩
  | .local _ .vmem, ⟨9, _⟩ => ⟨S1x1024x1024, .f32⟩
  | .local _ .vmem, ⟨10, _⟩ => ⟨S1024x1024, .f32⟩
  | .local _ .vmem, ⟨11, _⟩ => ⟨S1024x16, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨4, ![4, 2, 4, 4], ![false, false, false, false]⟩

def k0_cond2 (i : grid0.Coords) : BitVec 1 :=
  let arg3 : BitVec 32 := BitVec.ofNat 32 (i 3).val
  let c3_i32 : BitVec 32 := 3#32
  let v21 : BitVec 1 := Scalar.cmpi .eq arg3 c3_i32
  let v22 : BitVec 32 := Scalar.extui v21
  let c0_i32_17 : BitVec 32 := 0#32
  let v23 : BitVec 1 := Scalar.cmpi .ne v22 c0_i32_17
  v23

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg3.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1024x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false, true]

abbrev stage0_3 : Fin 2 → Memref sig .tc .vmem S1x16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, false]

class Facts₀ : Prop where
  bcast_S_S4x65536 : S_.BroadcastsInDim S4x65536 (![] : Fin 0 → Fin S4x65536.rank)
  shapeCasts_S4x65536_S4x4096x16 : S4x65536.ShapeCasts S4x4096x16
  shapeCasts_S4x65536_S4x16x4096 : S4x65536.ShapeCasts S4x16x4096
  bitsLt_bf16_f32 : FTy.bits .bf16 < FTy.bits .f32
  transposes_S4096x4096_S4096x4096_1_0 : S4096x4096.Transposes [1, 0] S4096x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1024x16_S1x1024x16_0_0_0 : ∀ a, (![0, 0, 0] : Fin 3 → Nat) a + S1x1024x16.size a ≤ S1x1024x16.size a
  h_S1x1024x16 : 0 < S1x1024x16.numel
  shapeCasts_S1x1024x16_S1024x16 : S1x1024x16.ShapeCasts S1024x16
  inb_S1x16x1024_S1x16x1024_0_0_0 : ∀ a, (![0, 0, 0] : Fin 3 → Nat) a + S1x16x1024.size a ≤ S1x16x1024.size a
  h_S1x16x1024 : 0 < S1x16x1024.numel
  shapeCasts_S1x16x1024_S16x1024 : S1x16x1024.ShapeCasts S16x1024
  shapeCasts_S1024x1024_S1x1024x1024 : S1024x1024.ShapeCasts S1x1024x1024
  dot_S4x1024_S1024x16_S4x16_1_0_0_1_n_n_wf : DotDims.WF S4x1024 S1024x16 S4x16 [1] [0] [0] [1] [] []
  dot_S4x16_S16x65536_S4x65536_1_0_0_1_n_n_wf : DotDims.WF S4x16 S16x65536 S4x65536 [1] [0] [0] [1] [] []
  dot_S1024x1024_S1024x1024_S1024x1024_1_0_0_1_n_n_wf : DotDims.WF S1024x1024 S1024x1024 S1024x1024 [1] [0] [0] [1] [] []
  dot_S1024x1024_S1024x16_S1024x16_1_0_0_1_n_n_wf : DotDims.WF S1024x1024 S1024x16 S1024x16 [1] [0] [0] [1] [] []
  dot_S1024x16_S16x1024_S1024x1024_1_0_0_1_n_n_wf : DotDims.WF S1024x16 S16x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x2048x4096.size a
  hwx0_0 : ∀ i : grid0.Coords, EltTy.bits .bf16 = 32 ∨ (Rect.block (s := S4x2048x4096) S1x1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x16.size a ≤ S4x4096x16.size a
  hwx0_2 : ∀ i : grid0.Coords, EltTy.bits .bf16 = 32 ∨ (Rect.block (s := S4x4096x16) S1x1024x16.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x1024.size a ≤ S4x16x4096.size a
  hwx0_3 : ∀ i : grid0.Coords, EltTy.bits .bf16 = 32 ∨ (Rect.block (s := S4x16x4096) S1x16x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S4x2048x4096.size a
  hwx0_4 : ∀ i : grid0.Coords, EltTy.bits .f32 = 32 ∨ (Rect.block (s := S4x2048x4096) S1x1024x1024.size (cc0_transform_4 i) (hinb0_4 i)).WholeWords (EltTy.packing .f32)

variable [Facts₀]

def dot_S4x1024_S1024x16_S4x16_1_0_0_1_n_n : DotDims S4x1024 S1024x16 S4x16 where
  lhsContracting := [1]
  rhsContracting := [0]
  lhsNonContracting := [0]
  rhsNonContracting := [1]
  lhsBatch := []
  rhsBatch := []
  wf := dot_S4x1024_S1024x16_S4x16_1_0_0_1_n_n_wf
def dot_S4x16_S16x65536_S4x65536_1_0_0_1_n_n : DotDims S4x16 S16x65536 S4x65536 where
  lhsContracting := [1]
  rhsContracting := [0]
  lhsNonContracting := [0]
  rhsNonContracting := [1]
  lhsBatch := []
  rhsBatch := []
  wf := dot_S4x16_S16x65536_S4x65536_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf

abbrev win0_0 : Pipeline.Window sig grid0 :=
  Pipeline.Window.ofSpec (Memref.whole main_v10) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x1024x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x16x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4x1024 : Shape := ⟨2, ![4, 1024]⟩
abbrev S4096x4096 : Shape := ⟨2, ![4096, 4096]⟩
abbrev S1024x16 : Shape := ⟨2, ![1024, 16]⟩
abbrev S16x65536 : Shape := ⟨2, ![16, 65536]⟩
abbrev S4x16 : Shape := ⟨2, ![4, 16]⟩
abbrev S4x65536 : Shape := ⟨2, ![4, 65536]⟩
abbrev S_ : Shape := ⟨0, ![]⟩
abbrev S4x4096x16 : Shape := ⟨3, ![4, 4096, 16]⟩
abbrev S4x16x4096 : Shape := ⟨3, ![4, 16, 4096]⟩
abbrev S4x2048x16 : Shape := ⟨3, ![4, 2048, 16]⟩

abbrev nBuf : Space → Nat
  | .hbm => 26
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x1024, .f32⟩
  | .hbm, ⟨2, _⟩ => ⟨S4096x4096, .f32⟩
  | .hbm, ⟨3, _⟩ => ⟨S1024x16, .f32⟩
  | .hbm, ⟨4, _⟩ => ⟨S16x65536, .f32⟩
  | .hbm, ⟨5, _⟩ => ⟨S1024x16, .f32⟩
  | .hbm, ⟨6, _⟩ => ⟨S16x65536, .f32⟩
  | .hbm, ⟨7, _⟩ => ⟨S4x16, .f32⟩
  | .hbm, ⟨8, _⟩ => ⟨S4x65536, .f32⟩
  | .hbm, ⟨9, _⟩ => ⟨S_, .f32⟩
  | .hbm, ⟨10, _⟩ => ⟨S4x65536, .f32⟩
  | .hbm, ⟨11, _⟩ => ⟨S4x65536, .f32⟩
  | .hbm, ⟨12, _⟩ => ⟨S4x4096x16, .f32⟩
  | .hbm, ⟨13, _⟩ => ⟨S4x16, .f32⟩
  | .hbm, ⟨14, _⟩ => ⟨S4x65536, .f32⟩
  | .hbm, ⟨15, _⟩ => ⟨S_, .f32⟩
  | .hbm, ⟨16, _⟩ => ⟨S4x65536, .f32⟩
  | .hbm, ⟨17, _⟩ => ⟨S4x65536, .f32⟩
  | .hbm, ⟨18, _⟩ => ⟨S4x16x4096, .f32⟩
  | .hbm, ⟨19, _⟩ => ⟨S4x2048x16, .f32⟩
  | .hbm, ⟨20, _⟩ => ⟨S4x2048x4096, .f32⟩
  | .hbm, ⟨21, _⟩ => ⟨S4x2048x4096, .f32⟩
  | .hbm, ⟨22, _⟩ => ⟨S_, .f32⟩
  | .hbm, ⟨23, _⟩ => ⟨S4x2048x4096, .f32⟩
  | .hbm, ⟨24, _⟩ => ⟨S4x2048x4096, .f32⟩
  | .hbm, ⟨25, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]

class Facts₀ : Prop where
  bcast_S_S4x65536 : S_.BroadcastsInDim S4x65536 (![] : Fin 0 → Fin S4x65536.rank)
  shapeCasts_S4x65536_S4x4096x16 : S4x65536.ShapeCasts S4x4096x16
  shapeCasts_S4x65536_S4x16x4096 : S4x65536.ShapeCasts S4x16x4096
  bcast_S_S4x2048x4096 : S_.BroadcastsInDim S4x2048x4096 (![] : Fin 0 → Fin S4x2048x4096.rank)
  dot_S4x1024_S1024x16_S4x16_1_0_0_1_n_n_wf : DotDims.WF S4x1024 S1024x16 S4x16 [1] [0] [0] [1] [] []
  dot_S4x16_S16x65536_S4x65536_1_0_0_1_n_n_wf : DotDims.WF S4x16 S16x65536 S4x65536 [1] [0] [0] [1] [] []
  dot_S4x2048x4096_S4x4096x16_S4x2048x16_2_1_1_2_0_0_wf : DotDims.WF S4x2048x4096 S4x4096x16 S4x2048x16 [2] [1] [1] [2] [0] [0]
  dot_S4x2048x16_S4x16x4096_S4x2048x4096_2_1_1_2_0_0_wf : DotDims.WF S4x2048x16 S4x16x4096 S4x2048x4096 [2] [1] [1] [2] [0] [0]
  dot_S4x2048x4096_S4096x4096_S4x2048x4096_2_1_01_0_n_n_wf : DotDims.WF S4x2048x4096 S4096x4096 S4x2048x4096 [2] [1] [0, 1] [0] [] []

variable [Facts₀]

def dot_S4x1024_S1024x16_S4x16_1_0_0_1_n_n : DotDims S4x1024 S1024x16 S4x16 where
  lhsContracting := [1]
  rhsContracting := [0]
  lhsNonContracting := [0]
  rhsNonContracting := [1]
  lhsBatch := []
  rhsBatch := []
  wf := dot_S4x1024_S1024x16_S4x16_1_0_0_1_n_n_wf
def dot_S4x16_S16x65536_S4x65536_1_0_0_1_n_n : DotDims S4x16 S16x65536 S4x65536 where
  lhsContracting := [1]
  rhsContracting := [0]
  lhsNonContracting := [0]
  rhsNonContracting := [1]
  lhsBatch := []
  rhsBatch := []
  wf := dot_S4x16_S16x65536_S4x65536_1_0_0_1_n_n_wf
def dot_S4x2048x4096_S4x4096x16_S4x2048x16_2_1_1_2_0_0 : DotDims S4x2048x4096 S4x4096x16 S4x2048x16 where
  lhsContracting := [2]
  rhsContracting := [1]
  lhsNonContracting := [1]
  rhsNonContracting := [2]
  lhsBatch := [0]
  rhsBatch := [0]
  wf := dot_S4x2048x4096_S4x4096x16_S4x2048x16_2_1_1_2_0_0_wf
def dot_S4x2048x16_S4x16x4096_S4x2048x4096_2_1_1_2_0_0 : DotDims S4x2048x16 S4x16x4096 S4x2048x4096 where
  lhsContracting := [2]
  rhsContracting := [1]
  lhsNonContracting := [1]
  rhsNonContracting := [2]
  lhsBatch := [0]
  rhsBatch := [0]
  wf := dot_S4x2048x16_S4x16x4096_S4x2048x4096_2_1_1_2_0_0_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
import proofs.«180421_j48919677501455_1_alg».proof.Proof.Gen.KernelIdeal.Frame
import Idealize.ShloMosaic.Lib.Pipeline.Value
import Idealize.ShloMosaic.Lib.Tactic

/-!
# What each control case of the kernel body leaves behind

The body keeps two accumulators between grid points, a 1024×1024 one and a 1024×16 one, and at the
last step of the reduction axis writes the output block. Over the last grid coordinate `k` there are
three control cases:

* A (`k = 0`): both accumulators are first overwritten with zeros, then read back, and the block
  products are added to what was read;
* B (`0 < k < 3`): the two block products are added to what the point before left;
* C (`k = 3`): the same two updates, after which both accumulators are read back and the output block
  is the wide accumulator plus the scaled low-rank product of the narrow one.

Each lemma below states the contents a case leaves in an accumulator (or in the output block) as the
corresponding payload of the body, applied to the blocks read and to the accumulator contents found.
-/

set_option maxRecDepth 16384

noncomputable section

namespace Cert.KernelIdeal.Pieces
open Cert.KernelIdeal Cert.KernelIdeal.Gen Idealize.ShloMosaic Idealize.ShloMosaic.TcCoe Idealize.SL.Sem
variable {F : FTy → Type} [FloatOps F]

/-- Case A, the wide accumulator: zeros are stored, read back, and the product of the first two input blocks is added. -/
theorem acc0_A (c : Dev nD) (i : grid0.Coords) (arg4 : Memref sig .tc .vmem S1x1024x1024 .bf16) (harg4 : arg4.IsWhole) (arg5 : Memref sig .tc .vmem S1024x1024 .bf16) (harg5 : arg5.IsWhole) (arg6 : Memref sig .tc .vmem S1x1024x16 .bf16) (harg6 : arg6.IsWhole) (arg7 : Memref sig .tc .vmem S1x16x1024 .bf16) (harg7 : arg7.IsWhole) (arg8 : Memref sig .tc .vmem S1x1024x1024 .f32) (harg8 : arg8.IsWhole) (arg9 : Memref sig .tc .vmem S1024x1024 .f32) (harg9 : arg9.IsWhole) (arg10 : Memref sig .tc .vmem S1024x16 .f32) (harg10 : arg10.IsWhole) (hc0 : cond0_0 i) (hc1 : ¬cond0_1 i) (x0 : Vec F S1x1024x1024 .bf16) (x1 : Vec F S1024x1024 .bf16) (x2 : Vec F S1x1024x16 .bf16) (x3 : Vec F S1x16x1024 .bf16) :
    sout0_A_0 c i arg4 harg4 arg5 harg5 arg6 harg6 arg7 harg7 arg8 harg8 arg9 harg9 arg10 harg10 hc0 hc1 x0 x1 x2 x3 = k0_pay4 x0 x1 (k0_pay1 (F := F)) := by
  have hz2 : (![0, 0] : Fin 2 → Nat) = fun _ => 0 := funext fun a => by fin_cases a <;> rfl
  have hz3 : (![0, 0, 0] : Fin 3 → Nat) = fun _ => 0 := funext fun a => by fin_cases a <;> rfl
  unfold sout0_A_0
  rw [View.read_writes_eq_canon _ _ _ (scover0_A_0 c i arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S1024x1024) hz2, View.readCov_unit_zero (S := S1024x1024) _ hz2]
  simp only [View.readAt_eq_ld, harg4.read_unread, harg5.read_unread, harg6.read_unread, harg7.read_unread, harg8.read_unread, harg9.read_unread, harg10.read_unread, View.ld_unit_zero (S := S1x1024x1024) hz3, View.ld_unit_zero (S := S1024x1024) hz2, View.ld_unit_zero (S := S1x1024x16) hz3, View.ld_unit_zero (S := S1x16x1024) hz3, View.ld_unit_zero (S := S1024x16) hz2]

/-- Case A, the narrow accumulator: zeros are stored, read back, and the product of the first and third input blocks is added. -/
theorem acc1_A (c : Dev nD) (i : grid0.Coords) (arg4 : Memref sig .tc .vmem S1x1024x1024 .bf16) (harg4 : arg4.IsWhole) (arg5 : Memref sig .tc .vmem S1024x1024 .bf16) (harg5 : arg5.IsWhole) (arg6 : Memref sig .tc .vmem S1x1024x16 .bf16) (harg6 : arg6.IsWhole) (arg7 : Memref sig .tc .vmem S1x16x1024 .bf16) (harg7 : arg7.IsWhole) (arg8 : Memref sig .tc .vmem S1x1024x1024 .f32) (harg8 : arg8.IsWhole) (arg9 : Memref sig .tc .vmem S1024x1024 .f32) (harg9 : arg9.IsWhole) (arg10 : Memref sig .tc .vmem S1024x16 .f32) (harg10 : arg10.IsWhole) (hc0 : cond0_0 i) (hc1 : ¬cond0_1 i) (x0 : Vec F S1x1024x1024 .bf16) (x1 : Vec F S1024x1024 .bf16) (x2 : Vec F S1x1024x16 .bf16) (x3 : Vec F S1x16x1024 .bf16) :
    sout0_A_1 c i arg4 harg4 arg5 harg5 arg6 harg6 arg7 harg7 arg8 harg8 arg9 harg9 arg10 harg10 hc0 hc1 x0 x1 x2 x3 = k0_pay5 x0 x2 (k0_pay2 (F := F)) := by
  have hz2 : (![0, 0] : Fin 2 → Nat) = fun _ => 0 := funext fun a => by fin_cases a <;> rfl
  have hz3 : (![0, 0, 0] : Fin 3 → Nat) = fun _ => 0 := funext fun a => by fin_cases a <;> rfl
  unfold sout0_A_1
  rw [View.read_writes_eq_canon _ _ _ (scover0_A_1 c i arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S1024x16) hz2, View.readCov_unit_zero (S := S1024x16) _ hz2]
  simp only [View.readAt_eq_ld, harg4.read_unread, harg5.read_unread, harg6.read_unread, harg7.read_unread, harg8.read_unread, harg9.read_unread, harg10.read_unread, View.ld_unit_zero (S := S1x1024x1024) hz3, View.ld_unit_zero (S := S1024x1024) hz2, View.ld_unit_zero (S := S1x1024x16) hz3, View.ld_unit_zero (S := S1x16x1024) hz3, View.ld_unit_zero (S := S1024x16) hz2]

/-- Case B, the wide accumulator: the product of the first two input blocks is added to what the point before left. -/
theorem acc0_B (c : Dev nD) (i : grid0.Coords) (arg4 : Memref sig .tc .vmem S1x1024x1024 .bf16) (harg4 : arg4.IsWhole) (arg5 : Memref sig .tc .vmem S1024x1024 .bf16) (harg5 : arg5.IsWhole) (arg6 : Memref sig .tc .vmem S1x1024x16 .bf16) (harg6 : arg6.IsWhole) (arg7 : Memref sig .tc .vmem S1x16x1024 .bf16) (harg7 : arg7.IsWhole) (arg8 : Memref sig .tc .vmem S1x1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : ¬cond0_1 i) (x0 : Vec F S1x1024x1024 .bf16) (x1 : Vec F S1024x1024 .bf16) (x2 : Vec F S1x1024x16 .bf16) (x3 : Vec F S1x16x1024 .bf16) (xs0 : Vec F S1024x1024 .f32) (xs1 : Vec F S1024x16 .f32) :
    sout0_B_0 c i arg4 harg4 arg5 harg5 arg6 harg6 arg7 harg7 arg8 harg8 arg9 harg9 arg10 harg10 hc0 hc1 x0 x1 x2 x3 xs0 xs1 = k0_pay4 x0 x1 xs0 := by
  have hz2 : (![0, 0] : Fin 2 → Nat) = fun _ => 0 := funext fun a => by fin_cases a <;> rfl
  have hz3 : (![0, 0, 0] : Fin 3 → Nat) = fun _ => 0 := funext fun a => by fin_cases a <;> rfl
  unfold sout0_B_0
  rw [View.read_writes_eq_canon _ _ _ (scover0_B_0 c i arg4 harg4 arg5 harg5 arg6 harg6 arg7 harg7 arg8 harg8 arg9 harg9 arg10 harg10 hc0 hc1 x0 x1 x2 x3 xs0 xs1)]
  unfold kernelRun0_B
  dsimp only
  sl_unfold_words
  rw [View.canon_unit_zero hz2]
  simp only [View.readAt_eq_ld, harg4.read_unread, harg5.read_unread, harg6.read_unread, harg7.read_unread, harg8.read_unread, harg9.read_unread, harg10.read_unread, View.ld_unit_zero (S := S1x1024x1024) hz3, View.ld_unit_zero (S := S1024x1024) hz2, View.ld_unit_zero (S := S1x1024x16) hz3, View.ld_unit_zero (S := S1x16x1024) hz3, View.ld_unit_zero (S := S1024x16) hz2]

/-- Case B, the narrow accumulator: the product of the first and third input blocks is added to what the point before left. -/
theorem acc1_B (c : Dev nD) (i : grid0.Coords) (arg4 : Memref sig .tc .vmem S1x1024x1024 .bf16) (harg4 : arg4.IsWhole) (arg5 : Memref sig .tc .vmem S1024x1024 .bf16) (harg5 : arg5.IsWhole) (arg6 : Memref sig .tc .vmem S1x1024x16 .bf16) (harg6 : arg6.IsWhole) (arg7 : Memref sig .tc .vmem S1x16x1024 .bf16) (harg7 : arg7.IsWhole) (arg8 : Memref sig .tc .vmem S1x1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : ¬cond0_1 i) (x0 : Vec F S1x1024x1024 .bf16) (x1 : Vec F S1024x1024 .bf16) (x2 : Vec F S1x1024x16 .bf16) (x3 : Vec F S1x16x1024 .bf16) (xs0 : Vec F S1024x1024 .f32) (xs1 : Vec F S1024x16 .f32) :
    sout0_B_1 c i arg4 harg4 arg5 harg5 arg6 harg6 arg7 harg7 arg8 harg8 arg9 harg9 arg10 harg10 hc0 hc1 x0 x1 x2 x3 xs0 xs1 = k0_pay5 x0 x2 xs1 := by
  have hz2 : (![0, 0] : Fin 2 → Nat) = fun _ => 0 := funext fun a => by fin_cases a <;> rfl
  have hz3 : (![0, 0, 0] : Fin 3 → Nat) = fun _ => 0 := funext fun a => by fin_cases a <;> rfl
  unfold sout0_B_1
  rw [View.read_writes_eq_canon _ _ _ (scover0_B_1 c i arg4 harg4 arg5 harg5 arg6 harg6 arg7 harg7 arg8 harg8 arg9 harg9 arg10 harg10 hc0 hc1 x0 x1 x2 x3 xs0 xs1)]
  unfold kernelRun0_B
  dsimp only
  sl_unfold_words
  rw [View.canon_unit_zero hz2]
  simp only [View.readAt_eq_ld, harg4.read_unread, harg5.read_unread, harg6.read_unread, harg7.read_unread, harg8.read_unread, harg9.read_unread, harg10.read_unread, View.ld_unit_zero (S := S1x1024x1024) hz3, View.ld_unit_zero (S := S1024x1024) hz2, View.ld_unit_zero (S := S1x1024x16) hz3, View.ld_unit_zero (S := S1x16x1024) hz3, View.ld_unit_zero (S := S1024x16) hz2]

/-- Case C, the wide accumulator: the same update as in case B. -/
theorem acc0_C (c : Dev nD) (i : grid0.Coords) (arg4 : Memref sig .tc .vmem S1x1024x1024 .bf16) (harg4 : arg4.IsWhole) (arg5 : Memref sig .tc .vmem S1024x1024 .bf16) (harg5 : arg5.IsWhole) (arg6 : Memref sig .tc .vmem S1x1024x16 .bf16) (harg6 : arg6.IsWhole) (arg7 : Memref sig .tc .vmem S1x16x1024 .bf16) (harg7 : arg7.IsWhole) (arg8 : Memref sig .tc .vmem S1x1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : cond0_1 i) (x0 : Vec F S1x1024x1024 .bf16) (x1 : Vec F S1024x1024 .bf16) (x2 : Vec F S1x1024x16 .bf16) (x3 : Vec F S1x16x1024 .bf16) (xs0 : Vec F S1024x1024 .f32) (xs1 : Vec F S1024x16 .f32) :
    sout0_C_0 c i arg4 harg4 arg5 harg5 arg6 harg6 arg7 harg7 arg8 harg8 arg9 harg9 arg10 harg10 hc0 hc1 x0 x1 x2 x3 xs0 xs1 = k0_pay4 x0 x1 xs0 := by
  have hz2 : (![0, 0] : Fin 2 → Nat) = fun _ => 0 := funext fun a => by fin_cases a <;> rfl
  have hz3 : (![0, 0, 0] : Fin 3 → Nat) = fun _ => 0 := funext fun a => by fin_cases a <;> rfl
  unfold sout0_C_0
  rw [View.read_writes_eq_canon _ _ _ (scover0_C_0 c i arg4 harg4 arg5 harg5 arg6 harg6 arg7 harg7 arg8 harg8 arg9 harg9 arg10 harg10 hc0 hc1 x0 x1 x2 x3 xs0 xs1)]
  unfold kernelRun0_C
  dsimp only
  sl_unfold_words
  rw [View.canon_unit_zero hz2]
  simp only [View.readAt_eq_ld, harg4.read_unread, harg5.read_unread, harg6.read_unread, harg7.read_unread, harg8.read_unread, harg9.read_unread, harg10.read_unread, View.ld_unit_zero (S := S1x1024x1024) hz3, View.ld_unit_zero (S := S1024x1024) hz2, View.ld_unit_zero (S := S1x1024x16) hz3, View.ld_unit_zero (S := S1x16x1024) hz3, View.ld_unit_zero (S := S1024x16) hz2]

/-- Case C, the narrow accumulator: the same update as in case B. -/
theorem acc1_C (c : Dev nD) (i : grid0.Coords) (arg4 : Memref sig .tc .vmem S1x1024x1024 .bf16) (harg4 : arg4.IsWhole) (arg5 : Memref sig .tc .vmem S1024x1024 .bf16) (harg5 : arg5.IsWhole) (arg6 : Memref sig .tc .vmem S1x1024x16 .bf16) (harg6 : arg6.IsWhole) (arg7 : Memref sig .tc .vmem S1x16x1024 .bf16) (harg7 : arg7.IsWhole) (arg8 : Memref sig .tc .vmem S1x1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : cond0_1 i) (x0 : Vec F S1x1024x1024 .bf16) (x1 : Vec F S1024x1024 .bf16) (x2 : Vec F S1x1024x16 .bf16) (x3 : Vec F S1x16x1024 .bf16) (xs0 : Vec F S1024x1024 .f32) (xs1 : Vec F S1024x16 .f32) :
    sout0_C_1 c i arg4 harg4 arg5 harg5 arg6 harg6 arg7 harg7 arg8 harg8 arg9 harg9 arg10 harg10 hc0 hc1 x0 x1 x2 x3 xs0 xs1 = k0_pay5 x0 x2 xs1 := by
  have hz2 : (![0, 0] : Fin 2 → Nat) = fun _ => 0 := funext fun a => by fin_cases a <;> rfl
  have hz3 : (![0, 0, 0] : Fin 3 → Nat) = fun _ => 0 := funext fun a => by fin_cases a <;> rfl
  unfold sout0_C_1
  rw [View.read_writes_eq_canon _ _ _ (scover0_C_1 c i arg4 harg4 arg5 harg5 arg6 harg6 arg7 harg7 arg8 harg8 arg9 harg9 arg10 harg10 hc0 hc1 x0 x1 x2 x3 xs0 xs1)]
  unfold kernelRun0_C
  dsimp only
  sl_unfold_words
  rw [View.canon_unit_zero hz2]
  simp only [View.readAt_eq_ld, harg4.read_unread, harg5.read_unread, harg6.read_unread, harg7.read_unread, harg8.read_unread, harg9.read_unread, harg10.read_unread, View.ld_unit_zero (S := S1x1024x1024) hz3, View.ld_unit_zero (S := S1024x1024) hz2, View.ld_unit_zero (S := S1x1024x16) hz3, View.ld_unit_zero (S := S1x16x1024) hz3, View.ld_unit_zero (S := S1024x16) hz2]

/-- Case C, the output block: the wide accumulator's new contents plus the scaled low-rank product of the
    narrow accumulator's new contents with the fourth input block. -/
theorem out_C (c : Dev nD) (i : grid0.Coords) (arg4 : Memref sig .tc .vmem S1x1024x1024 .bf16) (harg4 : arg4.IsWhole) (arg5 : Memref sig .tc .vmem S1024x1024 .bf16) (harg5 : arg5.IsWhole) (arg6 : Memref sig .tc .vmem S1x1024x16 .bf16) (harg6 : arg6.IsWhole) (arg7 : Memref sig .tc .vmem S1x16x1024 .bf16) (harg7 : arg7.IsWhole) (arg8 : Memref sig .tc .vmem S1x1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : cond0_1 i) (x0 : Vec F S1x1024x1024 .bf16) (x1 : Vec F S1024x1024 .bf16) (x2 : Vec F S1x1024x16 .bf16) (x3 : Vec F S1x16x1024 .bf16) (xs0 : Vec F S1024x1024 .f32) (xs1 : Vec F S1024x16 .f32) :
    out0_C_4 c i arg4 harg4 arg5 harg5 arg6 harg6 arg7 harg7 arg8 harg8 arg9 harg9 arg10 harg10 hc0 hc1 x0 x1 x2 x3 xs0 xs1 = k0_pay6 x3 (k0_pay5 x0 x2 xs1) (k0_pay4 x0 x1 xs0) := by
  have hz2 : (![0, 0] : Fin 2 → Nat) = fun _ => 0 := funext fun a => by fin_cases a <;> rfl
  have hz3 : (![0, 0, 0] : Fin 3 → Nat) = fun _ => 0 := funext fun a => by fin_cases a <;> rfl
  unfold out0_C_4
  rw [View.read_writes_eq_canon _ _ _ (cover0_C_4 c i arg4 harg4 arg5 harg5 arg6 harg6 arg7 harg7 arg8 harg8 arg9 harg9 arg10 harg10 hc0 hc1 x0 x1 x2 x3 xs0 xs1)]
  unfold kernelRun0_C
  dsimp only
  sl_unfold_words
  rw [View.canon_unit_zero hz3]
  simp only [View.readAt_eq_ld, harg4.read_unread, harg5.read_unread, harg6.read_unread, harg7.read_unread, harg8.read_unread, harg9.read_unread, harg10.read_unread, View.ld_unit_zero (S := S1x1024x1024) hz3, View.ld_unit_zero (S := S1024x1024) hz2, View.ld_unit_zero (S := S1x1024x16) hz3, View.ld_unit_zero (S := S1x16x1024) hz3, View.ld_unit_zero (S := S1024x16) hz2, View.readCov_unit_zero (S := S1024x1024) _ hz2, View.readCov_unit_zero (S := S1024x16) _ hz2]

end Cert.KernelIdeal.Pieces

end
-- ==== Proof.LoraSpec.lean ====
/-
  The layer both programs compute, index by index on the extended reals.  With x : [4, 2048, 4096] the input, W : [4096, 4096]
  the frozen weight, and per sample b the low-rank factors R[b] : [4096, 16] and L[b] : [16, 4096],

      out[b, s, r] = Σ_c x[b, s, c] · W[r, c]  +  (Σ_d (Σ_c x[b, s, c] · R[b, c, d]) · L[b, d, r]) · σ,        σ the f32 word 0x3D800000,

  the base product plus the scaled rank-16 path.  The scale stays the word it is: both programs multiply by the same word on
  the right of the same sum, so its value is never needed.
-/
import Idealize.ShloMosaic.PureOps.Ideal
import Idealize.ShloMosaic.Lib.ValueIdx

noncomputable section

open scoped BigOperators

namespace Cert.LoraSpec

open Idealize.ShloMosaic Idealize.ShloMosaic.ValueIdx

/-- The input's shape, the weight's, and the two per-sample factors'. -/
abbrev SX : Shape := ⟨3, ![4, 2048, 4096]⟩
abbrev SW : Shape := ⟨2, ![4096, 4096]⟩
abbrev SR : Shape := ⟨3, ![4, 4096, 16]⟩
abbrev SL : Shape := ⟨3, ![4, 16, 4096]⟩

/-- The scale of the low-rank path: the f32 word of 1/16. -/
def scale : EReal := Ideal.ofBits .f32 0x3D800000#32

/-- The base product at (b, s, r): the input's row against the weight's row r. -/
def base (x : SX.Idx → EReal) (W : SW.Idx → EReal) (b : Fin 4) (s : Fin 2048) (r : Fin 4096) : EReal :=
  ∑ k : Fin 4096, x (ix3 b s k) * W (ix2 r k)

/-- The down-projection at (b, s, d): the input's row against column d of the sample's right factor. -/
def down (x : SX.Idx → EReal) (R : SR.Idx → EReal) (b : Fin 4) (s : Fin 2048) (d : Fin 16) : EReal :=
  ∑ k : Fin 4096, x (ix3 b s k) * R (ix3 b k d)

/-- The layer's result array. -/
def lora (x : SX.Idx → EReal) (W : SW.Idx → EReal) (R : SR.Idx → EReal) (L : SL.Idx → EReal) : SX.Idx → EReal :=
  fun i => base x W (i 0) (i 1) (i 2) + (∑ d : Fin 16, down x R (i 0) (i 1) d * L (ix3 (i 0) d (i 2))) * scale

end Cert.LoraSpec

end
-- ==== Proof.Payloads.lean ====
/-
  The arithmetic of the kernel body at one entry, on the extended reals.  Each of the body's three matrix products
  starts from a zero accumulator, so at entry (p, q) it is the plain sum over the contracted position; the two
  accumulating stores add such a sum to what the accumulator held, and the closing store adds the scaled product of
  the narrow accumulator with the left factor's block to the wide accumulator.  A change of float format is the
  identity on the extended reals, and a cast that only drops or adds a leading axis of extent one moves no entry.
-/
import proofs.«180421_j48919677501455_1_alg».proof.Proof.Gen.KernelIdeal.Skeleton
import proofs.«180421_j48919677501455_1_alg».proof.Proof.LoraSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payloads

open Cert.KernelIdeal Cert.KernelIdeal.Gen Idealize.ShloMosaic Idealize.ShloMosaic.ValueIdx

/-! ### the input block against the weight block: which operand entries the product at an entry reads -/

theorem wide_lhs_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem wide_lhs_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem wide_rhs_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem wide_rhs_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The matrix product into the zero accumulator, at entry (p, q): the sum over the contracted position j of
    the left operand at (p, j) times the right operand at (j, q). -/
theorem wide_apply {φ₁ φ₂ : FTy} (a : FVec Ideal S1024x1024 φ₁) (w : FVec Ideal S1024x1024 φ₂) (p : Fin 1024) (q : Fin 1024) :
    matmul dot_S1024x1024_S1024x1024_S1024x1024_1_0_0_1_n_n none a w (constant (F := Ideal) S1024x1024 .f32 0x00000000#32) (ix2 p q)
      = ∑ j : Fin 1024, a (ix2 p j) * w (ix2 j q) := by
  show FloatOps.matmul dot_S1024x1024_S1024x1024_S1024x1024_1_0_0_1_n_n none a w (constant (F := Ideal) S1024x1024 .f32 0x00000000#32) (ix2 p q) = _
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact wide_lhs_0 _ _
    | ⟨1, _⟩ => exact (wide_lhs_1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (wide_rhs_0 _ _).trans hk
    | ⟨1, _⟩ => exact wide_rhs_1 _ _)
  rw [el, er]

/-! ### the input block against the right factor's block: which operand entries the product at an entry reads -/

theorem narrow_lhs_0 (i : S1024x16.Idx) (q : dot_S1024x1024_S1024x16_S1024x16_1_0_0_1_n_n.contr.Idx) :
    (dot_S1024x1024_S1024x16_S1024x16_1_0_0_1_n_n.lhsIdx i q 0).val = (i 0).val := by
  unfold DotDims.lhsIdx
  rw [dif_neg (show ¬(0 : Fin S1024x1024.rank) ∈ dot_S1024x1024_S1024x16_S1024x16_1_0_0_1_n_n.lhsBatch by decide), dif_pos (show (0 : Fin S1024x1024.rank) ∈ dot_S1024x1024_S1024x16_S1024x16_1_0_0_1_n_n.lhsNonContracting by decide)]
  rfl
theorem narrow_lhs_1 (i : S1024x16.Idx) (q : dot_S1024x1024_S1024x16_S1024x16_1_0_0_1_n_n.contr.Idx) :
    (dot_S1024x1024_S1024x16_S1024x16_1_0_0_1_n_n.lhsIdx i q 1).val = (q ⟨0, by decide⟩).val :=
  dot_S1024x1024_S1024x16_S1024x16_1_0_0_1_n_n.lhsIdx_val_of_single rfl i q
theorem narrow_rhs_0 (i : S1024x16.Idx) (q : dot_S1024x1024_S1024x16_S1024x16_1_0_0_1_n_n.contr.Idx) :
    (dot_S1024x1024_S1024x16_S1024x16_1_0_0_1_n_n.rhsIdx i q 0).val = (q ⟨0, by decide⟩).val :=
  dot_S1024x1024_S1024x16_S1024x16_1_0_0_1_n_n.rhsIdx_val_of_single rfl i q
theorem narrow_rhs_1 (i : S1024x16.Idx) (q : dot_S1024x1024_S1024x16_S1024x16_1_0_0_1_n_n.contr.Idx) :
    (dot_S1024x1024_S1024x16_S1024x16_1_0_0_1_n_n.rhsIdx i q 1).val = (i 1).val := by
  unfold DotDims.rhsIdx
  rw [dif_neg (show ¬(1 : Fin S1024x16.rank) ∈ dot_S1024x1024_S1024x16_S1024x16_1_0_0_1_n_n.rhsBatch by decide), dif_pos (show (1 : Fin S1024x16.rank) ∈ dot_S1024x1024_S1024x16_S1024x16_1_0_0_1_n_n.rhsNonContracting by decide)]
  rfl

/-- The matrix product into the zero accumulator, at entry (p, q): the sum over the contracted position j of
    the left operand at (p, j) times the right operand at (j, q). -/
theorem narrow_apply {φ₁ φ₂ : FTy} (a : FVec Ideal S1024x1024 φ₁) (w : FVec Ideal S1024x16 φ₂) (p : Fin 1024) (q : Fin 16) :
    matmul dot_S1024x1024_S1024x16_S1024x16_1_0_0_1_n_n none a w (constant (F := Ideal) S1024x16 .f32 0x00000000#32) (ix2 p q)
      = ∑ j : Fin 1024, a (ix2 p j) * w (ix2 j q) := by
  show FloatOps.matmul dot_S1024x1024_S1024x16_S1024x16_1_0_0_1_n_n none a w (constant (F := Ideal) S1024x16 .f32 0x00000000#32) (ix2 p q) = _
  rw [Ideal.matmul_constant_zero_apply, ← Equiv.sum_comp (contrEquiv1 dot_S1024x1024_S1024x16_S1024x16_1_0_0_1_n_n 1024 rfl rfl).symm]
  refine Finset.sum_congr rfl fun k _ => ?_
  have hk := contrEquiv1_symm_val dot_S1024x1024_S1024x16_S1024x16_1_0_0_1_n_n 1024 rfl rfl k
  have el : dot_S1024x1024_S1024x16_S1024x16_1_0_0_1_n_n.lhsIdx (ix2 p q) ((contrEquiv1 dot_S1024x1024_S1024x16_S1024x16_1_0_0_1_n_n 1024 rfl rfl).symm k) = ix2 p k := funext fun a => Fin.ext (by
    match a with
    | ⟨0, _⟩ => exact narrow_lhs_0 _ _
    | ⟨1, _⟩ => exact (narrow_lhs_1 _ _).trans hk)
  have er : dot_S1024x1024_S1024x16_S1024x16_1_0_0_1_n_n.rhsIdx (ix2 p q) ((contrEquiv1 dot_S1024x1024_S1024x16_S1024x16_1_0_0_1_n_n 1024 rfl rfl).symm k) = ix2 k q := funext fun a => Fin.ext (by
    match a with
    | ⟨0, _⟩ => exact (narrow_rhs_0 _ _).trans hk
    | ⟨1, _⟩ => exact narrow_rhs_1 _ _)
  rw [el, er]

/-! ### the down-projected rows against the left factor's block: which operand entries the product at an entry reads -/

theorem up_lhs_0 (i : S1024x1024.Idx) (q : dot_S1024x16_S16x1024_S1024x1024_1_0_0_1_n_n.contr.Idx) :
    (dot_S1024x16_S16x1024_S1024x1024_1_0_0_1_n_n.lhsIdx i q 0).val = (i 0).val := by
  unfold DotDims.lhsIdx
  rw [dif_neg (show ¬(0 : Fin S1024x16.rank) ∈ dot_S1024x16_S16x1024_S1024x1024_1_0_0_1_n_n.lhsBatch by decide), dif_pos (show (0 : Fin S1024x16.rank) ∈ dot_S1024x16_S16x1024_S1024x1024_1_0_0_1_n_n.lhsNonContracting by decide)]
  rfl
theorem up_lhs_1 (i : S1024x1024.Idx) (q : dot_S1024x16_S16x1024_S1024x1024_1_0_0_1_n_n.contr.Idx) :
    (dot_S1024x16_S16x1024_S1024x1024_1_0_0_1_n_n.lhsIdx i q 1).val = (q ⟨0, by decide⟩).val :=
  dot_S1024x16_S16x1024_S1024x1024_1_0_0_1_n_n.lhsIdx_val_of_single rfl i q
theorem up_rhs_0 (i : S1024x1024.Idx) (q : dot_S1024x16_S16x1024_S1024x1024_1_0_0_1_n_n.contr.Idx) :
    (dot_S1024x16_S16x1024_S1024x1024_1_0_0_1_n_n.rhsIdx i q 0).val = (q ⟨0, by decide⟩).val :=
  dot_S1024x16_S16x1024_S1024x1024_1_0_0_1_n_n.rhsIdx_val_of_single rfl i q
theorem up_rhs_1 (i : S1024x1024.Idx) (q : dot_S1024x16_S16x1024_S1024x1024_1_0_0_1_n_n.contr.Idx) :
    (dot_S1024x16_S16x1024_S1024x1024_1_0_0_1_n_n.rhsIdx i q 1).val = (i 1).val := by
  unfold DotDims.rhsIdx
  rw [dif_neg (show ¬(1 : Fin S16x1024.rank) ∈ dot_S1024x16_S16x1024_S1024x1024_1_0_0_1_n_n.rhsBatch by decide), dif_pos (show (1 : Fin S16x1024.rank) ∈ dot_S1024x16_S16x1024_S1024x1024_1_0_0_1_n_n.rhsNonContracting by decide)]
  rfl

/-- The matrix product into the zero accumulator, at entry (p, q): the sum over the contracted position j of
    the left operand at (p, j) times the right operand at (j, q). -/
theorem up_apply {φ₁ φ₂ : FTy} (a : FVec Ideal S1024x16 φ₁) (w : FVec Ideal S16x1024 φ₂) (p : Fin 1024) (q : Fin 1024) :
    matmul dot_S1024x16_S16x1024_S1024x1024_1_0_0_1_n_n none a w (constant (F := Ideal) S1024x1024 .f32 0x00000000#32) (ix2 p q)
      = ∑ j : Fin 16, a (ix2 p j) * w (ix2 j q) := by
  show FloatOps.matmul dot_S1024x16_S16x1024_S1024x1024_1_0_0_1_n_n none a w (constant (F := Ideal) S1024x1024 .f32 0x00000000#32) (ix2 p q) = _
  rw [Ideal.matmul_constant_zero_apply, ← Equiv.sum_comp (contrEquiv1 dot_S1024x16_S16x1024_S1024x1024_1_0_0_1_n_n 16 rfl rfl).symm]
  refine Finset.sum_congr rfl fun k _ => ?_
  have hk := contrEquiv1_symm_val dot_S1024x16_S16x1024_S1024x1024_1_0_0_1_n_n 16 rfl rfl k
  have el : dot_S1024x16_S16x1024_S1024x1024_1_0_0_1_n_n.lhsIdx (ix2 p q) ((contrEquiv1 dot_S1024x16_S16x1024_S1024x1024_1_0_0_1_n_n 16 rfl rfl).symm k) = ix2 p k := funext fun a => Fin.ext (by
    match a with
    | ⟨0, _⟩ => exact up_lhs_0 _ _
    | ⟨1, _⟩ => exact (up_lhs_1 _ _).trans hk)
  have er : dot_S1024x16_S16x1024_S1024x1024_1_0_0_1_n_n.rhsIdx (ix2 p q) ((contrEquiv1 dot_S1024x16_S16x1024_S1024x1024_1_0_0_1_n_n 16 rfl rfl).symm k) = ix2 k q := funext fun a => Fin.ext (by
    match a with
    | ⟨0, _⟩ => exact (up_rhs_0 _ _).trans hk
    | ⟨1, _⟩ => exact up_rhs_1 _ _)
  rw [el, er]

/-! ### The payloads at an entry -/

/-- The zero block the first point of a run stores into the wide accumulator. -/
theorem pay1_apply (i : S1024x1024.Idx) : k0_pay1 (F := Ideal) i = 0 := by
  unfold k0_pay1
  simp only [shapeCast_self]
  exact Ideal.ofBits_zero_f32

/-- The zero block the first point of a run stores into the narrow accumulator. -/
theorem pay2_apply (i : S1024x16.Idx) : k0_pay2 (F := Ideal) i = 0 := by
  unfold k0_pay2
  simp only [shapeCast_self]
  exact Ideal.ofBits_zero_f32

/-- The wide accumulator's update: what it held at (p, q) plus the input block's row p against the weight block's
    column q. -/
theorem pay4_apply (v3 : Vec Ideal S1x1024x1024 .bf16) (v5 : Vec Ideal S1024x1024 .bf16) (v7 : Vec Ideal S1024x1024 .f32)
    (p q : Fin 1024) :
    k0_pay4 v3 v5 v7 (ix2 p q) = v7 (ix2 p q) + ∑ j : Fin 1024, v3 (ix3 (0 : Fin 1) p j) * v5 (ix2 j q) := by
  unfold k0_pay4 k0_pay3
  simp only [shapeCast_self]
  refine (addf_apply _ _ _).trans ?_
  refine congrArg (v7 (ix2 p q) + ·) ?_
  refine (wide_apply (φ₁ := .bf16) (φ₂ := .bf16) _ _ p q).trans ?_
  refine Finset.sum_congr rfl fun j _ => ?_
  rw [shapeCast_1ab_ab_apply]

/-- The narrow accumulator's update: what it held at (p, d) plus the input block's row p against the right factor
    block's column d. -/
theorem pay5_apply (v3 : Vec Ideal S1x1024x1024 .bf16) (v13 : Vec Ideal S1x1024x16 .bf16) (v15 : Vec Ideal S1024x16 .f32)
    (p : Fin 1024) (d : Fin 16) :
    k0_pay5 v3 v13 v15 (ix2 p d) = v15 (ix2 p d) + ∑ j : Fin 1024, v3 (ix3 (0 : Fin 1) p j) * v13 (ix3 (0 : Fin 1) j d) := by
  unfold k0_pay5 k0_pay3
  simp only [shapeCast_self]
  refine (addf_apply _ _ _).trans ?_
  refine congrArg (v15 (ix2 p d) + ·) ?_
  refine (narrow_apply (φ₁ := .bf16) (φ₂ := .bf16) _ _ p d).trans ?_
  refine Finset.sum_congr rfl fun j _ => ?_
  rw [shapeCast_1ab_ab_apply, shapeCast_1ab_ab_apply]

/-- The output block: the wide accumulator at (p, q) plus the scaled product of the narrow accumulator's row p with
    the left factor block's column q. -/
theorem pay6_apply (v24 : Vec Ideal S1x16x1024 .bf16) (v26 : Vec Ideal S1024x16 .f32) (v29 : Vec Ideal S1024x1024 .f32)
    (u : Fin 1) (p q : Fin 1024) :
    k0_pay6 v24 v26 v29 (ix3 u p q)
      = v29 (ix2 p q) + (∑ d : Fin 16, v26 (ix2 p d) * v24 (ix3 (0 : Fin 1) d q)) * Cert.LoraSpec.scale := by
  unfold k0_pay6
  rw [shapeCast_ab_1ab_apply]
  refine (addf_apply _ _ _).trans ?_
  refine congrArg (v29 (ix2 p q) + ·) ?_
  refine (mulf_apply _ _ _).trans ?_
  refine congrArg₂ (· * ·) ?_ rfl
  refine (up_apply (φ₁ := .bf16) (φ₂ := .bf16) _ _ p q).trans ?_
  refine Finset.sum_congr rfl fun d _ => ?_
  rw [shapeCast_1ab_ab_apply]
  rfl

end Cert.KernelIdeal.Payloads

end
-- ==== Proof.Fold.lean ====
/-
  What the two accumulators hold at the last point of a run, and the output block written there.  A run is four
  consecutive grid points 4·g, …, 4·g + 3 (the contraction steps k = 0..3 of one output block).  Its first point stores
  zero and adds its block product; each later point adds its own to what the point before left.  So after the run's last
  point the wide accumulator holds, at (p, q), zero plus the sum over the four points of the input block's row p against
  the weight block's column q, and the narrow accumulator the same with the right factor's block; the output block is
  the first plus the scaled product of the second with the left factor's block.
-/
import proofs.«180421_j48919677501455_1_alg».proof.Proof.Gen.KernelIdeal.Value
import proofs.«180421_j48919677501455_1_alg».proof.Proof.Pieces
import proofs.«180421_j48919677501455_1_alg».proof.Proof.Payloads
import proofs.«180421_j48919677501455_1_alg».proof.Proof.LoraSpec
import Idealize.ShloMosaic.Lib.Pipeline.Value
import Idealize.ShloMosaic.Lib.ValueIdx

noncomputable section

open scoped BigOperators

open Idealize.ShloMosaic Idealize.ShloMosaic.TcCoe Idealize.SL.Sem Idealize.ShloMosaic.ValueIdx

namespace Cert.KernelIdeal.Fold

open Cert.KernelIdeal Cert.KernelIdeal.Gen Cert.KernelIdeal.Value Cert.KernelIdeal.Payloads

variable (m : (ℓ : Loc nD τ sig) → Buf (Elt Ideal) ℓ)

/-- The blocks of the four input windows at a point, under their literal types. -/
abbrev xblk (c : Dev nD) (t : Fin cfg0.N) : Vec Ideal S1x1024x1024 .bf16 := iblk m c 0 t
abbrev wblk (c : Dev nD) (t : Fin cfg0.N) : Vec Ideal S1024x1024 .bf16 := iblk m c 1 t
abbrev rblk (c : Dev nD) (t : Fin cfg0.N) : Vec Ideal S1x1024x16 .bf16 := iblk m c 2 t
abbrev lblk (c : Dev nD) (t : Fin cfg0.N) : Vec Ideal S1x16x1024 .bf16 := iblk m c 3 t

/-- What point n adds to the wide accumulator at an entry: its input block's row against its weight block's column
    (zero past the grid, where nothing reads it). -/
def wideAdd (c : Dev nD) (n : ℕ) (i : S1024x1024.Idx) : EReal :=
  if h : n < cfg0.N then ∑ j : Fin 1024, xblk m c ⟨n, h⟩ (ix3 (0 : Fin 1) (i 0) j) * wblk m c ⟨n, h⟩ (ix2 j (i 1)) else 0

/-- What point n adds to the narrow accumulator at an entry: its input block's row against its right-factor block's
    column. -/
def narrowAdd (c : Dev nD) (n : ℕ) (i : S1024x16.Idx) : EReal :=
  if h : n < cfg0.N then ∑ j : Fin 1024, xblk m c ⟨n, h⟩ (ix3 (0 : Fin 1) (i 0) j) * rblk m c ⟨n, h⟩ (ix3 (0 : Fin 1) j (i 1)) else 0

/-- The first point of a run leaves zero plus its addend in the wide accumulator, whatever it held. -/
theorem wide_reset (c : Dev nD) (n : ℕ) (h : n < cfg0.N) (h0 : n % 4 = 0) (acc : Vec Ideal S1024x1024 .f32) (i : S1024x1024.Idx) :
    scAt0_0 m c n h acc i = 0 + wideAdd m c n i := by
  have h1 : ¬n % 4 = 3 := by omega
  unfold scAt0_0
  rw [dif_pos h0, dif_neg h1, Cert.KernelIdeal.Pieces.acc0_A]
  obtain ⟨p, q, rfl⟩ : ∃ (p q : Fin 1024), i = ix2 p q := ⟨i 0, i 1, eq_ix2 i⟩
  rw [pay4_apply, pay1_apply]
  unfold wideAdd
  rw [dif_pos h]

/-- A later point of a run adds its addend to what the wide accumulator held. -/
theorem wide_step (c : Dev nD) (n : ℕ) (h : n < cfg0.N) (h0 : ¬n % 4 = 0) (acc : Vec Ideal S1024x1024 .f32) (i : S1024x1024.Idx) :
    scAt0_0 m c n h acc i = acc i + wideAdd m c n i := by
  obtain ⟨p, q, rfl⟩ : ∃ (p q : Fin 1024), i = ix2 p q := ⟨i 0, i 1, eq_ix2 i⟩
  unfold scAt0_0 wideAdd
  rw [dif_pos h]
  by_cases h1 : n % 4 = 3
  · rw [dif_neg h0, dif_pos h1, Cert.KernelIdeal.Pieces.acc0_C, pay4_apply]
  · rw [dif_neg h0, dif_neg h1, Cert.KernelIdeal.Pieces.acc0_B, pay4_apply]

/-- The first point of a run leaves zero plus its addend in the narrow accumulator. -/
theorem narrow_reset (c : Dev nD) (n : ℕ) (h : n < cfg0.N) (h0 : n % 4 = 0) (acc : Vec Ideal S1024x16 .f32) (i : S1024x16.Idx) :
    scAt0_1 m c n h acc i = 0 + narrowAdd m c n i := by
  have h1 : ¬n % 4 = 3 := by omega
  unfold scAt0_1
  rw [dif_pos h0, dif_neg h1, Cert.KernelIdeal.Pieces.acc1_A]
  obtain ⟨p, d, rfl⟩ : ∃ (p : Fin 1024) (d : Fin 16), i = ix2 p d := ⟨i 0, i 1, eq_ix2 i⟩
  rw [pay5_apply, pay2_apply]
  unfold narrowAdd
  rw [dif_pos h]

/-- A later point of a run adds its addend to what the narrow accumulator held. -/
theorem narrow_step (c : Dev nD) (n : ℕ) (h : n < cfg0.N) (h0 : ¬n % 4 = 0) (acc : Vec Ideal S1024x16 .f32) (i : S1024x16.Idx) :
    scAt0_1 m c n h acc i = acc i + narrowAdd m c n i := by
  obtain ⟨p, d, rfl⟩ : ∃ (p : Fin 1024) (d : Fin 16), i = ix2 p d := ⟨i 0, i 1, eq_ix2 i⟩
  unfold scAt0_1 narrowAdd
  rw [dif_pos h]
  by_cases h1 : n % 4 = 3
  · rw [dif_neg h0, dif_pos h1, Cert.KernelIdeal.Pieces.acc1_C, pay5_apply]
  · rw [dif_neg h0, dif_neg h1, Cert.KernelIdeal.Pieces.acc1_B, pay5_apply]

/-- After the last point of a run the wide accumulator holds zero plus the four points' addends. -/
theorem wide_at (c : Dev nD) (t : Fin cfg0.N) (ht : t.val % 4 = 3) (i : S1024x1024.Idx) :
    (outsAt0 m c t.val t.isLt).2.1 i = 0 + ∑ s ∈ Finset.range 4, wideAdd m c (4 * (t.val / 4) + s) i := by
  rw [soutsAt0_0_eq]
  refine (Pipeline.accAt_add_apply (fun n h => scAt0_0 m c n h (VS0_0.read (Elt Ideal) VS0_0.junk)) (scAt0_0 m c)
    (fun _ => 0) (wideAdd m c) (4 * (t.val / 4)) 3
    (fun h i => wide_reset m c _ h (Nat.mul_mod_right 4 _) _ i)
    (fun n h acc i h1 h2 => wide_step m c n h (by omega) acc i) (t.val % 4) (by omega) _ i).trans ?_
  rw [ht]

/-- After the last point of a run the narrow accumulator holds zero plus the four points' addends. -/
theorem narrow_at (c : Dev nD) (t : Fin cfg0.N) (ht : t.val % 4 = 3) (i : S1024x16.Idx) :
    (outsAt0 m c t.val t.isLt).2.2 i = 0 + ∑ s ∈ Finset.range 4, narrowAdd m c (4 * (t.val / 4) + s) i := by
  rw [soutsAt0_1_eq]
  refine (Pipeline.accAt_add_apply (fun n h => scAt0_1 m c n h (VS0_1.read (Elt Ideal) VS0_1.junk)) (scAt0_1 m c)
    (fun _ => 0) (narrowAdd m c) (4 * (t.val / 4)) 3
    (fun h i => narrow_reset m c _ h (Nat.mul_mod_right 4 _) _ i)
    (fun n h acc i h1 h2 => narrow_step m c n h (by omega) acc i) (t.val % 4) (by omega) _ i).trans ?_
  rw [ht]

/-- The output block the last point of a run stores, from the accumulators as that point leaves them. -/
theorem out_eq (c : Dev nD) (t : Fin cfg0.N) (ht : t.val % 4 = 3) :
    (outsAt0 m c t.val t.isLt).1
      = k0_pay6 (lblk m c t) ((outsAt0 m c t.val t.isLt).2.2) ((outsAt0 m c t.val t.isLt).2.1) := by
  have h0 : ¬t.val % 4 = 0 := by omega
  rw [outsAt0_C m c t h0 ht]
  dsimp only
  rw [Cert.KernelIdeal.Pieces.out_C, Cert.KernelIdeal.Pieces.acc1_C, Cert.KernelIdeal.Pieces.acc0_C]

/-- The output block at (p, q): the wide accumulator's sum plus the scaled product of the narrow accumulator's sums
    with the left factor's block. -/
theorem out_at (c : Dev nD) (t : Fin cfg0.N) (ht : t.val % 4 = 3) (u : Fin 1) (p q : Fin 1024) :
    (outsAt0 m c t.val t.isLt).1 (ix3 u p q)
      = (0 + ∑ s ∈ Finset.range 4, wideAdd m c (4 * (t.val / 4) + s) (ix2 p q))
        + (∑ d : Fin 16, (0 + ∑ s ∈ Finset.range 4, narrowAdd m c (4 * (t.val / 4) + s) (ix2 p d)) * lblk m c t (ix3 (0 : Fin 1) d q))
          * Cert.LoraSpec.scale := by
  rw [out_eq m c t ht, pay6_apply, wide_at m c t ht]
  refine congrArg (_ + ·) (congrArg (· * Cert.LoraSpec.scale) (Finset.sum_congr rfl fun d _ => ?_))
  rw [narrow_at m c t ht]

end Cert.KernelIdeal.Fold

end
-- ==== Proof.Blocks.lean ====
/-
  Where the kernel's blocks sit in the arrays.  The grid has 4 x 2 x 4 x 4 points t = ((b·2 + s)·4 + r)·4 + k: sample b,
  row tile s and output-feature tile r of 1024 each, and the contraction step k over the four runs of 1024 input features.
  At point t the input's block holds rows s·1024 … and features k·1024 … of sample b; the transposed weight's block holds
  features k·1024 … against output features r·1024 …; the right factor's block holds features k·1024 … of sample b and all
  16 ranks; the left factor's block all 16 ranks against output features r·1024 … of sample b.  The staged input is the
  input itself and the staged weight the weight transposed (a change of float format moves no value on the extended reals).
-/
import proofs.«180421_j48919677501455_1_alg».proof.Proof.Gen.KernelIdeal.Value
import proofs.«180421_j48919677501455_1_alg».proof.Proof.LoraSpec
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable (m : (ℓ : Loc nD τ sig) → Buf (Elt Ideal) ℓ)

/-- The windows' block indices at point t, decided over the 128 points of the grid. -/
theorem idx_facts : ∀ t : Fin cfg0.N,
    win0_0.index t (0 : Fin 3) = t.val / 32 ∧ win0_0.index t (1 : Fin 3) = t.val / 16 % 2 ∧ win0_0.index t (2 : Fin 3) = t.val % 4
    ∧ win0_1.index t (0 : Fin 2) = t.val % 4 ∧ win0_1.index t (1 : Fin 2) = t.val / 4 % 4
    ∧ win0_2.index t (0 : Fin 3) = t.val / 32 ∧ win0_2.index t (1 : Fin 3) = t.val % 4 ∧ win0_2.index t (2 : Fin 3) = 0
    ∧ win0_3.index t (0 : Fin 3) = t.val / 32 ∧ win0_3.index t (1 : Fin 3) = 0 ∧ win0_3.index t (2 : Fin 3) = t.val / 4 % 4
    ∧ win0_4.index t (0 : Fin 3) = t.val / 32 ∧ win0_4.index t (1 : Fin 3) = t.val / 16 % 2 ∧ win0_4.index t (2 : Fin 3) = t.val / 4 % 4 :=
  (by decide +kernel : ∀ t : Fin grid0.N, _)

/-- The staged input is the input. -/
theorem v10_eq (c : Dev nD) : (V m c main_v10 : S4x2048x4096.Idx → EReal) = m ((c : Thread nD τ).loc main_arg0) := by
  dsimp only [Gen.V, Gen.hostOps0]
  after_results
  rfl

/-- The staged weight is the weight transposed. -/
theorem v12_eq (c : Dev nD) : (V m c main_v12 : S4096x4096.Idx → EReal)
    = transpose S4096x4096 [1, 0] (m ((c : Thread nD τ).loc main_arg2)) transposes_S4096x4096_S4096x4096_1_0 := by
  dsimp only [Gen.V, Gen.hostOps0]
  after_results
  rfl

/-- The input's block at point t = (b, s, r, k), entry (p, j): the input at sample b, row s·1024 + p, feature k·1024 + j. -/
theorem xblk_at (c : Dev nD) (t : Fin cfg0.N) (p j : Fin 1024) (i : S4x2048x4096.Idx) (e0 : (i 0).val = t.val / 32)
    (e1 : (i 1).val = t.val / 16 % 2 * 1024 + p.val) (e2 : (i 2).val = t.val % 4 * 1024 + j.val) :
    (iblk m c 0 t : Vec Ideal S1x1024x1024 .bf16) (ix3 (0 : Fin 1) p j) = m ((c : Thread nD τ).loc main_arg0) i := by
  obtain ⟨h0, h1, h2, -⟩ := idx_facts t
  unfold iblk
  rw [View.read_apply]
  show (V m c main_v10 : S4x2048x4096.Idx → EReal) _ = _
  rw [v10_eq]
  congr 1
  funext a
  apply Fin.ext
  match a with
  | ⟨0, _⟩ => show win0_0.index t 0 * 1 + 1 * 0 = (i 0).val; rw [h0, e0]; omega
  | ⟨1, _⟩ => show win0_0.index t 1 * 1024 + 1 * p.val = (i 1).val; rw [h1, e1]; omega
  | ⟨2, _⟩ => show win0_0.index t 2 * 1024 + 1 * j.val = (i 2).val; rw [h2, e2]; omega

/-- The transposed weight's block at point t, entry (j, q): the weight at output feature r·1024 + q, input feature
    k·1024 + j. -/
theorem wblk_at (c : Dev nD) (t : Fin cfg0.N) (j q : Fin 1024) (i : S4096x4096.Idx) (e0 : (i 0).val = t.val / 4 % 4 * 1024 + q.val)
    (e1 : (i 1).val = t.val % 4 * 1024 + j.val) :
    (iblk m c 1 t : Vec Ideal S1024x1024 .bf16) (ix2 j q) = m ((c : Thread nD τ).loc main_arg2) i := by
  obtain ⟨-, -, -, h0, h1, -⟩ := idx_facts t
  unfold iblk
  rw [View.read_apply]
  show (V m c main_v12 : S4096x4096.Idx → EReal) _ = _
  rw [v12_eq]
  refine (transpose_apply _ _ _ _ i fun b => ?_)
  match b with
  | ⟨0, _⟩ => show (i 1).val = win0_1.index t 0 * 1024 + 1 * j.val; rw [h0, e1]; omega
  | ⟨1, _⟩ => show (i 0).val = win0_1.index t 1 * 1024 + 1 * q.val; rw [h1, e0]; omega

/-- The right factor's block at point t, entry (j, d): the staged right factor at sample b, feature k·1024 + j, rank d. -/
theorem rblk_at (c : Dev nD) (t : Fin cfg0.N) (j : Fin 1024) (d : Fin 16) (i : S4x4096x16.Idx) (e0 : (i 0).val = t.val / 32)
    (e1 : (i 1).val = t.val % 4 * 1024 + j.val) (e2 : (i 2).val = d.val) :
    (iblk m c 2 t : Vec Ideal S1x1024x16 .bf16) (ix3 (0 : Fin 1) j d) = (V m c main_v13 : S4x4096x16.Idx → EReal) i := by
  obtain ⟨-, -, -, -, -, h0, h1, h2, -⟩ := idx_facts t
  unfold iblk
  rw [View.read_apply]
  show (V m c main_v13 : S4x4096x16.Idx → EReal) _ = _
  congr 1
  funext a
  apply Fin.ext
  match a with
  | ⟨0, _⟩ => show win0_2.index t 0 * 1 + 1 * 0 = (i 0).val; rw [h0, e0]; omega
  | ⟨1, _⟩ => show win0_2.index t 1 * 1024 + 1 * j.val = (i 1).val; rw [h1, e1]; omega
  | ⟨2, _⟩ => show win0_2.index t 2 * 16 + 1 * d.val = (i 2).val; rw [h2, e2]; omega

/-- The left factor's block at point t, entry (d, q): the staged left factor at sample b, rank d, output feature
    r·1024 + q. -/
theorem lblk_at (c : Dev nD) (t : Fin cfg0.N) (d : Fin 16) (q : Fin 1024) (i : S4x16x4096.Idx) (e0 : (i 0).val = t.val / 32)
    (e1 : (i 1).val = d.val) (e2 : (i 2).val = t.val / 4 % 4 * 1024 + q.val) :
    (iblk m c 3 t : Vec Ideal S1x16x1024 .bf16) (ix3 (0 : Fin 1) d q) = (V m c main_v14 : S4x16x4096.Idx → EReal) i := by
  obtain ⟨-, -, -, -, -, -, -, -, h0, h1, h2, -⟩ := idx_facts t
  unfold iblk
  rw [View.read_apply]
  show (V m c main_v14 : S4x16x4096.Idx → EReal) _ = _
  congr 1
  funext a
  apply Fin.ext
  match a with
  | ⟨0, _⟩ => show win0_3.index t 0 * 1 + 1 * 0 = (i 0).val; rw [h0, e0]; omega
  | ⟨1, _⟩ => show win0_3.index t 1 * 16 + 1 * d.val = (i 1).val; rw [h1, e1]; omega
  | ⟨2, _⟩ => show win0_3.index t 2 * 1024 + 1 * q.val = (i 2).val; rw [h2, e2]; omega

end Cert.KernelIdeal.Blocks
end
-- ==== Proof.LibBlockSum.lean ====
/-
  A sum over n * b consecutive indices is the sum of n consecutive runs of b of them: the law that joins a contraction
  accumulated block by block along the contracted axis with the same contraction done at once. It holds in any
  commutative additive monoid (so on the extended reals with no finiteness assumed), for any number n of blocks and
  any block length b. Three forms: over initial segments of the naturals, over the finite index types with a function
  of the natural position, and for a function of the n * b positions themselves.
-/
import Mathlib.Algebra.BigOperators.Fin
import Mathlib.Algebra.BigOperators.Intervals

open scoped BigOperators

namespace Cert.LibBlockSum

variable {M : Type*} [AddCommMonoid M]

/-- A sum over the first `n * b` naturals, cut into `n` consecutive runs of `b`: run `s` holds the positions
    `b * s + x` for `x < b`. -/
theorem sum_range_mul (g : ℕ → M) (n b : ℕ) :
    ∑ k ∈ Finset.range (n * b), g k = ∑ s ∈ Finset.range n, ∑ x ∈ Finset.range b, g (b * s + x) := by
  induction n with
  | zero => simp
  | succ n ih => rw [Nat.succ_mul, Finset.sum_range_add, ih, Finset.sum_range_succ, Nat.mul_comm b n]

/-- The same with the positions and the positions inside a run as finite types. -/
theorem sum_fin_mul (g : ℕ → M) (n b : ℕ) :
    ∑ k : Fin (n * b), g k.val = ∑ s ∈ Finset.range n, ∑ x : Fin b, g (b * s + x.val) := by
  rw [Fin.sum_univ_eq_sum_range (fun k => g k) (n * b), sum_range_mul]
  exact Finset.sum_congr rfl fun s _ => (Fin.sum_univ_eq_sum_range (fun x => g (b * s + x)) b).symm

/-- The same for a function of the `N = n * b` positions themselves: run `s`'s position `x` is position `b * s + x`
    (the guard is true on every term: `s < n` and `x < b`). -/
theorem sum_fin_blocks {N : ℕ} (n b : ℕ) (hN : N = n * b) (f : Fin N → M) :
    ∑ k, f k = ∑ s ∈ Finset.range n, ∑ x : Fin b, (if h : b * s + x.val < N then f ⟨b * s + x.val, h⟩ else 0) := by
  subst hN
  have e := sum_fin_mul (fun k => if h : k < n * b then f ⟨k, h⟩ else 0) n b
  simp only [Fin.is_lt, dite_true, Fin.eta] at e
  exact e

end Cert.LibBlockSum
-- ==== Proof.Final.lean ====
/-
  The kernel's result array is the layer.  At the last point t of a run (t = 4·g + 3) the output block written back holds,
  at (p, q), the four points' block products summed; point 4·g + u of the run reads input features u·1024 … u·1024 + 1023,
  so the four sums over 1024 features are the one contraction over the 4096 features cut into consecutive runs — the same
  extended real, addition being commutative and associative.  That block is therefore the layer read through the block's
  place in the array (sample t / 32, rows (t / 16 mod 2)·1024 …, output features (t / 4 mod 4)·1024 …); the 32 flushing
  points' blocks tile the array; so the array ends holding the layer.
-/
import proofs.«180421_j48919677501455_1_alg».proof.Proof.Fold
import proofs.«180421_j48919677501455_1_alg».proof.Proof.Blocks
import proofs.«180421_j48919677501455_1_alg».proof.Proof.LibBlockSum

noncomputable section

open scoped BigOperators

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Value Cert.KernelIdeal.Blocks Cert.KernelIdeal.Fold Cert.LoraSpec

variable (m : (ℓ : Loc nD τ sig) → Buf (Elt Ideal) ℓ) (ρ : Dev nD → PrngReg)

/-- A sum over the 4096 features, cut into the four runs of 1024. -/
theorem sum_by_runs (f : Fin 4096 → EReal) :
    ∑ k, f k = ∑ u ∈ Finset.range 4, ∑ j : Fin 1024, (if h : 1024 * u + j.val < 4096 then f ⟨1024 * u + j.val, h⟩ else 0) :=
  Cert.LibBlockSum.sum_fin_blocks 4 1024 rfl f

/-- The array the result window ends holding: the layer of the input, the weight and the two staged factors. -/
abbrev result (c : Dev nD) : S4x2048x4096.Idx → EReal :=
  lora (m ((c : Thread nD τ).loc main_arg0)) (m ((c : Thread nD τ).loc main_arg2))
    (V m c main_v13 : S4x4096x16.Idx → EReal) (V m c main_v14 : S4x16x4096.Idx → EReal)

/-- The wide accumulator's four addends of the run that ends at t are the base product at the block's place. -/
theorem wide_sum (c : Dev nD) (t : Fin cfg0.N) (ht : t.val % 4 = 3) (p q : Fin 1024) (b : Fin 4) (s : Fin 2048) (r : Fin 4096)
    (eb : b.val = t.val / 32) (es : s.val = t.val / 16 % 2 * 1024 + p.val) (er : r.val = t.val / 4 % 4 * 1024 + q.val) :
    0 + ∑ u ∈ Finset.range 4, wideAdd m c (4 * (t.val / 4) + u) (ix2 p q)
      = base (m ((c : Thread nD τ).loc main_arg0)) (m ((c : Thread nD τ).loc main_arg2)) b s r := by
  have hN : cfg0.N = 128 := N_0
  have htN : t.val < 128 := lt_of_lt_of_eq t.isLt hN
  rw [zero_add]
  unfold base
  rw [sum_by_runs]
  refine Finset.sum_congr rfl fun u hu => ?_
  have hu4 : u < 4 := Finset.mem_range.mp hu
  have hn : 4 * (t.val / 4) + u < cfg0.N := lt_of_lt_of_eq (by omega : 4 * (t.val / 4) + u < 128) hN.symm
  unfold wideAdd
  rw [dif_pos hn]
  refine Finset.sum_congr rfl fun j _ => ?_
  have hj : j.val < 1024 := j.isLt
  rw [dif_pos (by omega)]
  exact congrArg₂ (· * ·)
    (xblk_at m c ⟨4 * (t.val / 4) + u, hn⟩ p j (ix3 b s ⟨1024 * u + j.val, by omega⟩)
      (by show b.val = (4 * (t.val / 4) + u) / 32; omega)
      (by show s.val = (4 * (t.val / 4) + u) / 16 % 2 * 1024 + p.val; omega)
      (by show 1024 * u + j.val = (4 * (t.val / 4) + u) % 4 * 1024 + j.val; omega))
    (wblk_at m c ⟨4 * (t.val / 4) + u, hn⟩ j q (ix2 r ⟨1024 * u + j.val, by omega⟩)
      (by show r.val = (4 * (t.val / 4) + u) / 4 % 4 * 1024 + q.val; omega)
      (by show 1024 * u + j.val = (4 * (t.val / 4) + u) % 4 * 1024 + j.val; omega))

/-- The narrow accumulator's four addends of the run that ends at t are the down-projection at the block's place. -/
theorem narrow_sum (c : Dev nD) (t : Fin cfg0.N) (ht : t.val % 4 = 3) (p : Fin 1024) (d : Fin 16) (b : Fin 4) (s : Fin 2048)
    (eb : b.val = t.val / 32) (es : s.val = t.val / 16 % 2 * 1024 + p.val) :
    0 + ∑ u ∈ Finset.range 4, narrowAdd m c (4 * (t.val / 4) + u) (ix2 p d)
      = down (m ((c : Thread nD τ).loc main_arg0)) (V m c main_v13 : S4x4096x16.Idx → EReal) b s d := by
  have hN : cfg0.N = 128 := N_0
  have htN : t.val < 128 := lt_of_lt_of_eq t.isLt hN
  rw [zero_add]
  unfold down
  rw [sum_by_runs]
  refine Finset.sum_congr rfl fun u hu => ?_
  have hu4 : u < 4 := Finset.mem_range.mp hu
  have hn : 4 * (t.val / 4) + u < cfg0.N := lt_of_lt_of_eq (by omega : 4 * (t.val / 4) + u < 128) hN.symm
  unfold narrowAdd
  rw [dif_pos hn]
  refine Finset.sum_congr rfl fun j _ => ?_
  have hj : j.val < 1024 := j.isLt
  rw [dif_pos (by omega)]
  exact congrArg₂ (· * ·)
    (xblk_at m c ⟨4 * (t.val / 4) + u, hn⟩ p j (ix3 b s ⟨1024 * u + j.val, by omega⟩)
      (by show b.val = (4 * (t.val / 4) + u) / 32; omega)
      (by show s.val = (4 * (t.val / 4) + u) / 16 % 2 * 1024 + p.val; omega)
      (by show 1024 * u + j.val = (4 * (t.val / 4) + u) % 4 * 1024 + j.val; omega))
    (rblk_at m c ⟨4 * (t.val / 4) + u, hn⟩ j d (ix3 b ⟨1024 * u + j.val, by omega⟩ d)
      (by show b.val = (4 * (t.val / 4) + u) / 32; omega)
      (by show 1024 * u + j.val = (4 * (t.val / 4) + u) % 4 * 1024 + j.val; omega)
      rfl)

/-- The output block the last point of a run stores is the layer at the block's place in the array. -/
theorem out_block (c : Dev nD) (t : Fin cfg0.N) (ht : t.val % 4 = 3) (y : S1x1024x1024.Idx) (i : S4x2048x4096.Idx)
    (e0 : (i 0).val = t.val / 32) (e1 : (i 1).val = t.val / 16 % 2 * 1024 + (y 1).val)
    (e2 : (i 2).val = t.val / 4 % 4 * 1024 + (y 2).val) :
    (outsAt0 m c t.val t.isLt).1 y = result m c i := by
  obtain ⟨u, p, q, rfl⟩ : ∃ (u : Fin 1) (p q : Fin 1024), y = ix3 u p q := ⟨y 0, y 1, y 2, eq_ix3 y⟩
  rw [out_at m c t ht u p q]
  show _ = base (m ((c : Thread nD τ).loc main_arg0)) (m ((c : Thread nD τ).loc main_arg2)) (i 0) (i 1) (i 2)
      + (∑ d : Fin 16, down (m ((c : Thread nD τ).loc main_arg0)) (V m c main_v13 : S4x4096x16.Idx → EReal) (i 0) (i 1) d
          * (V m c main_v14 : S4x16x4096.Idx → EReal) (ix3 (i 0) d (i 2))) * scale
  refine congrArg₂ (· + ·) (wide_sum m c t ht p q (i 0) (i 1) (i 2) e0 e1 e2)
    (congrArg (· * scale) (Finset.sum_congr rfl fun d _ => ?_))
  exact congrArg₂ (· * ·) (narrow_sum m c t ht p d (i 0) (i 1) e0 e1) (lblk_at m c t d q (ix3 (i 0) d (i 2)) e0 rfl e2)

/-- What a flushing point writes back is the layer read through the point's block. -/
theorem flushed_eq (c : Dev nD) (t : Fin cfg0.N) (hf : (cfg0.win 4).flush t = true) :
    (dats m 0 c).flushed 4 t = ((cfg0.win 4).blk t).view.read (Elt Ideal) (result m c) := by
  have ht : t.val % 4 = 3 := (flush0_4 t).mp hf
  obtain ⟨-, -, -, -, -, -, -, -, -, -, -, h0, h1, h2⟩ := idx_facts t
  rw [flushed4]
  funext y
  show (outsAt0 m c t.val t.isLt).1 y = result m c (((cfg0.win 4).blk t).view.emb y)
  refine out_block m c t ht y _ ?_ ?_ ?_
  · show win0_4.index t 0 * 1 + 1 * (y 0).val = t.val / 32
    have hy : (y 0).val < 1 := (y 0).isLt
    rw [h0]; omega
  · show win0_4.index t 1 * 1024 + 1 * (y 1).val = t.val / 16 % 2 * 1024 + (y 1).val
    rw [h1]; omega
  · show win0_4.index t 2 * 1024 + 1 * (y 2).val = t.val / 4 % 4 * 1024 + (y 2).val
    rw [h2]; omega

/-- Every index of the result array lies in the block of a flushing point: the last point of the run of its sample,
    row tile and output-feature tile. -/
theorem cover (i : S4x2048x4096.Idx) :
    ∃ t : Fin cfg0.N, (cfg0.win 4).flush t = true ∧ i ∈ ((cfg0.win 4).blk t).view.set := by
  have hN : cfg0.N = 128 := N_0
  have h0 : (i 0).val < 4 := (i 0).isLt
  have h1 : (i 1).val < 2048 := (i 1).isLt
  have h2 : (i 2).val < 4096 := (i 2).isLt
  let n : ℕ := (((i 0).val * 2 + (i 1).val / 1024) * 4 + (i 2).val / 1024) * 4 + 3
  have hn : n < cfg0.N := lt_of_lt_of_eq (by show (((i 0).val * 2 + (i 1).val / 1024) * 4 + (i 2).val / 1024) * 4 + 3 < 128; omega) hN.symm
  have hnv : n = (((i 0).val * 2 + (i 1).val / 1024) * 4 + (i 2).val / 1024) * 4 + 3 := rfl
  obtain ⟨-, -, -, -, -, -, -, -, -, -, -, e0, e1, e2⟩ := idx_facts ⟨n, hn⟩
  refine ⟨⟨n, hn⟩, (flush0_4 ⟨n, hn⟩).mpr (by show n % 4 = 3; omega), ?_⟩
  show i ∈ ((View.whole main_v15).slice (win0_4.rect ⟨n, hn⟩)).set
  rw [View.set_slice_whole, Rect.mem_set_unit]
  intro a
  match a with
  | ⟨0, _⟩ =>
    show win0_4.index ⟨n, hn⟩ 0 * 1 ≤ (i 0).val ∧ (i 0).val < win0_4.index ⟨n, hn⟩ 0 * 1 + 1
    rw [e0]; show n / 32 * 1 ≤ (i 0).val ∧ (i 0).val < n / 32 * 1 + 1; omega
  | ⟨1, _⟩ =>
    show win0_4.index ⟨n, hn⟩ 1 * 1024 ≤ (i 1).val ∧ (i 1).val < win0_4.index ⟨n, hn⟩ 1 * 1024 + 1024
    rw [e1]; show n / 16 % 2 * 1024 ≤ (i 1).val ∧ (i 1).val < n / 16 % 2 * 1024 + 1024; omega
  | ⟨2, _⟩ =>
    show win0_4.index ⟨n, hn⟩ 2 * 1024 ≤ (i 2).val ∧ (i 2).val < win0_4.index ⟨n, hn⟩ 2 * 1024 + 1024
    rw [e2]; show n / 4 % 4 * 1024 ≤ (i 2).val ∧ (i 2).val < n / 4 % 4 * 1024 + 1024; omega

/-- The result array after the run is the layer. -/
theorem final (c : Dev nD) : (dats m 0 c).arrAt 4 cfg0.N = result m c :=
  (dats m 0 c).arrAt_eq_of_cover 4 (result m c) (flushed_eq m c) cover

/-- The kernel's run: the result array at the layer, the arguments unchanged. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.Final

end
-- ==== Proof.RefSide.lean ====
/-
  The reference program's result, read index by index on the extended reals, is the layer of LoraSpec.

  Its last operation adds two arrays.  The first is the input against the frozen weight, contracted over the 4096 input features
  (the weight's second axis): at (b, s, r) it is Σ_c x[b, s, c] · W[r, c], the base product.  The second is a batched product
  scaled by the constant array that holds the f32 word 0x3D800000 everywhere: at (b, s, r) the batched product is
  Σ_d D[b, s, d] · L[b, d, r] over the 16 ranks, where D[b, s, d] = Σ_c x[b, s, c] · R[b, c, d] is the down-projection and R, L are
  the two per-sample factors the program computes from its other arguments.  These are the two summands of the layer, term by
  term; all that is to be seen is that the index each contraction reads its operands at is the index built from the coordinates.
-/
import proofs.«180421_j48919677501455_1_alg».proof.Proof.Gen.ReferenceIdeal.Read
import proofs.«180421_j48919677501455_1_alg».proof.Proof.LoraSpec
import Idealize.ShloMosaic.Lib.ValueIdx
import Idealize.ShloMosaic.PureOps.Ideal.Laws

noncomputable section

open scoped BigOperators

namespace Cert.ReferenceIdeal.RefSide
open Cert.ReferenceIdeal Cert.ReferenceIdeal.Gen Cert.ReferenceIdeal.Read Idealize.ShloMosaic Idealize.ShloMosaic.ValueIdx

/-- The base product reads the input at (b, s, c). -/
private theorem lidx12 (i : S4x2048x4096.Idx) (k : Fin 4096) : lidx_main_v12 i k = ix3 (i 0) (i 1) k :=
  funext fun a => Fin.ext (by match a with | ⟨0, _⟩ => rfl | ⟨1, _⟩ => rfl | ⟨2, _⟩ => rfl)

/-- The base product reads the weight at (r, c): its row is the output feature. -/
private theorem ridx12 (i : S4x2048x4096.Idx) (k : Fin 4096) : ridx_main_v12 i k = ix2 (i 2) k :=
  funext fun a => Fin.ext (by match a with | ⟨0, _⟩ => rfl | ⟨1, _⟩ => rfl)

/-- The up-projection reads the left factor at (b, d, r). -/
private theorem ridx11 (i : S4x2048x4096.Idx) (d : Fin 16) : ridx_main_v11 i d = ix3 (i 0) d (i 2) :=
  funext fun a => Fin.ext (by match a with | ⟨0, _⟩ => rfl | ⟨1, _⟩ => rfl | ⟨2, _⟩ => rfl)

/-- The up-projection reads the down-projection at (b, s, d): the three coordinates of that index. -/
private theorem lidx11_0 (i : S4x2048x4096.Idx) (d : Fin 16) : lidx_main_v11 i d 0 = i 0 := rfl
private theorem lidx11_1 (i : S4x2048x4096.Idx) (d : Fin 16) : lidx_main_v11 i d 1 = i 1 := rfl
private theorem lidx11_2 (i : S4x2048x4096.Idx) (d : Fin 16) : lidx_main_v11 i d 2 = d := rfl

/-- The down-projection reads the input at (b, s, c). -/
private theorem lidx10 (j : S4x2048x16.Idx) (k : Fin 4096) : lidx_main_v10 j k = ix3 (j 0) (j 1) k :=
  funext fun a => Fin.ext (by match a with | ⟨0, _⟩ => rfl | ⟨1, _⟩ => rfl | ⟨2, _⟩ => rfl)

/-- The down-projection reads the right factor at (b, c, d). -/
private theorem ridx10 (j : S4x2048x16.Idx) (k : Fin 4096) : ridx_main_v10 j k = ix3 (j 0) k (j 2) :=
  funext fun a => Fin.ext (by match a with | ⟨0, _⟩ => rfl | ⟨1, _⟩ => rfl | ⟨2, _⟩ => rfl)

/-- The reference's result is the layer, with the two per-sample factors the arrays the program computes for them. -/
theorem ref_eq (x0 : FVec Ideal S4x2048x4096 .f32) (x1 : FVec Ideal S4x1024 .f32) (x2 : FVec Ideal S4096x4096 .f32) (x3 : FVec Ideal S1024x16 .f32) (x4 : FVec Ideal S16x65536 .f32) (x5 : FVec Ideal S1024x16 .f32) (x6 : FVec Ideal S16x65536 .f32) :
    val_main_v15 (F := Ideal) x0 x1 x2 x3 x4 x5 x6
      = Cert.LoraSpec.lora x0 x2 (val_main_v4 (F := Ideal) x1 x3 x4) (val_main_v9 (F := Ideal) x1 x5 x6) := by
  funext i
  rw [val_main_v15_apply, val_main_v12_apply, val_main_v14_apply, val_main_v11_apply, val_main_v13_apply,
    val_main_cst_1_apply]
  simp only [val_main_v10_apply, lidx10, ridx10]
  unfold Cert.LoraSpec.lora Cert.LoraSpec.base Cert.LoraSpec.down Cert.LoraSpec.scale
  simp only [lidx12, ridx12, lidx11_0, lidx11_1, lidx11_2, ridx11, Ideal.addf_def, Ideal.mulf_def, Ideal.ofBits_def]
  rfl

end Cert.ReferenceIdeal.RefSide

end
-- ==== Proof.Bridge.lean ====
/-
  Both programs compute the two per-sample low-rank factors from the same arguments by the same host operations: the
  personalised representation against a small weight, that against a wide one, the scale by the f32 word of 1/16, and a
  reshape to [4, 4096, 16] (the right factor) or [4, 16, 4096] (the left one).  The kernel then stages each factor in a
  narrower float format, which on the extended reals changes no value.  So the arrays the kernel stages are the arrays
  the reference contracts with.
-/
import proofs.«180421_j48919677501455_1_alg».proof.Proof.Gen.KernelIdeal.Frame
import proofs.«180421_j48919677501455_1_alg».proof.Proof.Gen.ReferenceIdeal.Read
import Idealize.ShloMosaic.Lib.StableHlo.Run
import Idealize.ShloMosaic.Lib.Tactic

noncomputable section

open Idealize.ShloMosaic Idealize.ShloMosaic.TcCoe Idealize.SL.Sem

namespace Cert.Bridge

variable (m : (ℓ : Loc Cert.KernelIdeal.nD Cert.KernelIdeal.τ Cert.KernelIdeal.sig) → Buf (Elt Ideal) ℓ)

/-- The staged right factor is the reference's right factor of the same arguments. -/
theorem right_eq (c : Dev Cert.KernelIdeal.nD) :
    (Cert.KernelIdeal.Gen.V m c Cert.KernelIdeal.main_v13 : Cert.KernelIdeal.S4x4096x16.Idx → EReal)
      = Cert.ReferenceIdeal.Read.val_main_v4 (F := Ideal) (m ((c : Thread Cert.KernelIdeal.nD Cert.KernelIdeal.τ).loc Cert.KernelIdeal.main_arg1)) (m ((c : Thread Cert.KernelIdeal.nD Cert.KernelIdeal.τ).loc Cert.KernelIdeal.main_arg3)) (m ((c : Thread Cert.KernelIdeal.nD Cert.KernelIdeal.τ).loc Cert.KernelIdeal.main_arg4)) := by
  dsimp only [Cert.KernelIdeal.Gen.V, Cert.KernelIdeal.Gen.hostOps0]
  after_results
  rfl

/-- The staged left factor is the reference's left factor of the same arguments. -/
theorem left_eq (c : Dev Cert.KernelIdeal.nD) :
    (Cert.KernelIdeal.Gen.V m c Cert.KernelIdeal.main_v14 : Cert.KernelIdeal.S4x16x4096.Idx → EReal)
      = Cert.ReferenceIdeal.Read.val_main_v9 (F := Ideal) (m ((c : Thread Cert.KernelIdeal.nD Cert.KernelIdeal.τ).loc Cert.KernelIdeal.main_arg1)) (m ((c : Thread Cert.KernelIdeal.nD Cert.KernelIdeal.τ).loc Cert.KernelIdeal.main_arg5)) (m ((c : Thread Cert.KernelIdeal.nD Cert.KernelIdeal.τ).loc Cert.KernelIdeal.main_arg6)) := by
  dsimp only [Cert.KernelIdeal.Gen.V, Cert.KernelIdeal.Gen.hostOps0]
  after_results
  rfl

end Cert.Bridge

end
-- ==== Proof.lean ====
/-
  The kernel is an adapted linear layer: the base product of the input with the frozen weight plus a rank-16 path whose
  two factors are generated per sample, scaled by 1/16.  It tiles rows and output features by 1024 and cuts the
  contraction over the 4096 input features into four steps along the last grid axis, keeping the base product and the
  down-projected rows in two accumulators that are zeroed at the first step and read out at the last, where the
  up-projection and the scale are applied and the output block is stored.  The reference computes the same layer with
  three whole contractions.

  On the extended reals the two agree with no use of finiteness: every matrix product into a zero accumulator is the plain
  sum over the contracted position, a change of float format is the identity, and zero plus four consecutive runs of 1024
  terms is the sum of the 4096 terms because addition is commutative and associative.  The scale is the same f32 word on
  both sides and is never evaluated; both programs multiply by it on the right of the same sum.

  The three programs run without fault and leave their arguments as they were: for the kernel and its idealisation that
  is the frame of the generated pipeline run; for the reference it is its straight-line run with the result dropped.
  The idealisation rewrote nothing, so it is the kernel's own text read on the extended reals.
-/
import proofs.«180421_j48919677501455_1_alg».proof.Defs
import proofs.«180421_j48919677501455_1_alg».proof.Proof.Gen.Kernel
import proofs.«180421_j48919677501455_1_alg».proof.Proof.Gen.Kernel.Skeleton
import proofs.«180421_j48919677501455_1_alg».proof.Proof.Gen.Kernel.Launch
import proofs.«180421_j48919677501455_1_alg».proof.Proof.Gen.Kernel.Points
import proofs.«180421_j48919677501455_1_alg».proof.Proof.Gen.Kernel.Frame
import proofs.«180421_j48919677501455_1_alg».proof.Proof.Gen.KernelIdeal
import proofs.«180421_j48919677501455_1_alg».proof.Proof.Gen.KernelIdeal.Skeleton
import proofs.«180421_j48919677501455_1_alg».proof.Proof.Gen.KernelIdeal.Launch
import proofs.«180421_j48919677501455_1_alg».proof.Proof.Gen.KernelIdeal.Points
import proofs.«180421_j48919677501455_1_alg».proof.Proof.Gen.KernelIdeal.Frame
import proofs.«180421_j48919677501455_1_alg».proof.Proof.Gen.ReferenceIdeal
import proofs.«180421_j48919677501455_1_alg».proof.Proof.Gen.Pre_finite_inputs
import proofs.«180421_j48919677501455_1_alg».proof.Proof.Gen.KernelIdeal.Value
import proofs.«180421_j48919677501455_1_alg».proof.Proof.Gen.ReferenceIdeal.Run
import proofs.«180421_j48919677501455_1_alg».proof.Proof.Gen.ReferenceIdeal.Read
import proofs.«180421_j48919677501455_1_alg».proof.Proof.Final
import proofs.«180421_j48919677501455_1_alg».proof.Proof.RefSide
import proofs.«180421_j48919677501455_1_alg».proof.Proof.Bridge
import Idealize.ShloMosaic.Adequacy
import Idealize.ShloMosaic.Init

noncomputable section

namespace Cert.Proof

open Idealize.ShloMosaic Idealize.SL.Sem

/-- The kernel's run ends with the result array at the layer of its arguments (the kernel-side value), the reference's
    with its composed term, which is the layer of its arguments with the reference's own two factors; the arguments
    agree, and the staged factors are the reference's. -/
theorem algebraic [hKernelIdeal : Cert.KernelIdeal.Facts] [hReferenceIdeal : Cert.ReferenceIdeal.Facts]
    [hPre_finite_inputs : Cert.Pre_finite_inputs.Facts] : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v15_eq, Cert.ReferenceIdeal.RefSide.ref_eq, a0, a1, a2, a3, a4, a5, a6]
  show _ = Cert.LoraSpec.lora _ _ _ _
  rw [Cert.Bridge.right_eq, Cert.Bridge.left_eq]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
